-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x40 : Shape := ⟨2, ![2097152, 40]⟩
abbrev S40x100 : Shape := ⟨2, ![40, 100]⟩
abbrev S_ : Shape := ⟨0, ![]⟩

class Facts : Prop where
  bcast_S_S2097152x40 : S_.BroadcastsInDim S2097152x40 (![] : Fin 0 → Fin S2097152x40.rank)
  reducesTo_S2097152x40_S_d0_1 : S2097152x40.ReducesTo [0, 1] S_
  h_S_ : 0 < S_.numel
  bcast_S_S40x100 : S_.BroadcastsInDim S40x100 (![] : Fin 0 → Fin S40x100.rank)
  reducesTo_S40x100_S_d0_1 : S40x100.ReducesTo [0, 1] S_

variable [Facts]

def fn {F : FTy → Type} [FloatOps F] (main_arg0 : FVec F S2097152x40 .f32) (main_arg1 : FVec F S2097152x40 .f32) (main_arg2 : FVec F S40x100 .f32) : IVec S_ 1 :=
  let main_v0 : FVec F S2097152x40 .f32 := Host.absf main_arg0
  let main_cst : FVec F S_ .f32 := constant S_ .f32 0x7F800000#32
  let main_v1 : FVec F S2097152x40 .f32 := broadcastInDim S2097152x40 ![] bcast_S_S2097152x40 main_cst
  let main_v2 : IVec S2097152x40 1 := cmpf .olt main_v0 main_v1
  let main_c : IVec S_ 1 := constantI S_ 1 1#1
  let main_v3 : IVec S_ 1 := (fun x v => Host.reduce IntOp.andi x v reducesTo_S2097152x40_S_d0_1 h_S_) main_v2 main_c
  let main_v4 : FVec F S2097152x40 .f32 := Host.absf main_arg1
  let main_cst_0 : FVec F S_ .f32 := constant S_ .f32 0x7F800000#32
  let main_v5 : FVec F S2097152x40 .f32 := broadcastInDim S2097152x40 ![] bcast_S_S2097152x40 main_cst_0
  let main_v6 : IVec S2097152x40 1 := cmpf .olt main_v4 main_v5
  let main_c_1 : IVec S_ 1 := constantI S_ 1 1#1
  let main_v7 : IVec S_ 1 := (fun x v => Host.reduce IntOp.andi x v reducesTo_S2097152x40_S_d0_1 h_S_) main_v6 main_c_1
  let main_v8 : IVec S_ 1 := andi main_v3 main_v7
  let main_v9 : FVec F S40x100 .f32 := Host.absf main_arg2
  let main_cst_2 : FVec F S_ .f32 := constant S_ .f32 0x7F800000#32
  let main_v10 : FVec F S40x100 .f32 := broadcastInDim S40x100 ![] bcast_S_S40x100 main_cst_2
  let main_v11 : IVec S40x100 1 := cmpf .olt main_v9 main_v10
  let main_c_3 : IVec S_ 1 := constantI S_ 1 1#1
  let main_v12 : IVec S_ 1 := (fun x v => Host.reduce IntOp.andi x v reducesTo_S40x100_S_d0_1 h_S_) main_v11 main_c_3
  let main_v13 : IVec S_ 1 := andi main_v8 main_v12
  main_v13
-- ==== Kernel.lean ====
abbrev S2097152x40 : Shape := ⟨2, ![2097152, 40]⟩
abbrev S40x100 : Shape := ⟨2, ![40, 100]⟩
abbrev S100x40 : Shape := ⟨2, ![100, 40]⟩
abbrev S1x1 : Shape := ⟨2, ![1, 1]⟩
abbrev S8192x40 : Shape := ⟨2, ![8192, 40]⟩
abbrev S40 : Shape := ⟨1, ![40]⟩
abbrev S1x40 : Shape := ⟨2, ![1, 40]⟩
abbrev S8192 : Shape := ⟨1, ![8192]⟩
abbrev S8192x1 : Shape := ⟨2, ![8192, 1]⟩
abbrev S1 : Shape := ⟨1, ![1]⟩
abbrev S_ : Shape := ⟨0, ![]⟩
abbrev S16384x40 : Shape := ⟨2, ![16384, 40]⟩

abbrev nBuf : Space → Nat
  | .hbm => 22
  | .vmem => 13
  | .smem => 0
  | _ => 0

abbrev bufTy : (tb : Table) → Fin (tcTables nBuf tb) → BufTy
  | .hbm, ⟨0, _⟩ => ⟨S2097152x40, .f32⟩
  | .hbm, ⟨1, _⟩ => ⟨S2097152x40, .f32⟩
  | .hbm, ⟨2, _⟩ => ⟨S40x100, .f32⟩
  | .hbm, ⟨3, _⟩ => ⟨S100x40, .f32⟩
  | .hbm, ⟨4, _⟩ => ⟨S1x1, .f32⟩
  | .hbm, ⟨5, _⟩ => ⟨S100x40, .f32⟩
  | .hbm, ⟨6, _⟩ => ⟨S_, .f32⟩
  | .hbm, ⟨7, _⟩ => ⟨S100x40, .f32⟩
  | .hbm, ⟨8, _⟩ => ⟨S100x40, .i1⟩
  | .hbm, ⟨9, _⟩ => ⟨S_, .f32⟩
  | .hbm, ⟨10, _⟩ => ⟨S100x40, .f32⟩
  | .hbm, ⟨11, _⟩ => ⟨S100x40, .f32⟩
  | .hbm, ⟨12, _⟩ => ⟨S_, .f32⟩
  | .hbm, ⟨13, _⟩ => ⟨S100x40, .f32⟩
  | .hbm, ⟨14, _⟩ => ⟨S100x40, .f32⟩
  | .hbm, ⟨15, _⟩ => ⟨S100x40, .f32⟩
  | .hbm, ⟨16, _⟩ => ⟨S100x40, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2097152x40, .f32⟩
  | .hbm, ⟨21, _⟩ => ⟨S40x100, .f32⟩
  | .local _ .vmem, ⟨0, _⟩ => ⟨S8192x40, .f32⟩
  | .local _ .vmem, ⟨1, _⟩ => ⟨S8192x40, .f32⟩
  | .local _ .vmem, ⟨2, _⟩ => ⟨S8192x40, .f32⟩
  | .local _ .vmem, ⟨3, _⟩ => ⟨S8192x40, .f32⟩
  | .local _ .vmem, ⟨4, _⟩ => ⟨S100x40, .f32⟩
  | .local _ .vmem, ⟨5, _⟩ => ⟨S1x1, .f32⟩
  | .local _ .vmem, ⟨6, _⟩ => ⟨S16384x40, .f32⟩
  | .local _ .vmem, ⟨7, _⟩ => ⟨S16384x40, .f32⟩
  | .local _ .vmem, ⟨8, _⟩ => ⟨S16384x40, .f32⟩
  | .local _ .vmem, ⟨9, _⟩ => ⟨S16384x40, .f32⟩
  | .local _ .vmem, ⟨10, _⟩ => ⟨S100x40, .f32⟩
  | .local _ .vmem, ⟨11, _⟩ => ⟨S16384x40, .f32⟩
  | .local _ .vmem, ⟨12, _⟩ => ⟨S16384x40, .f32⟩
  | _, _ => ⟨S2097152x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x40 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S100x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16384x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S100x40_S100x40_0_0 : ∀ a, (![0, 0] : Fin 2 → Nat) a + S100x40.size a ≤ S100x40.size a
  h_S100x40 : 0 < S100x40.numel
  inb_S1x1_S1x1_0_0 : ∀ a, (![0, 0] : Fin 2 → Nat) a + S1x1.size a ≤ S1x1.size a
  h_S1x1 : 0 < S1x1.numel
  inb_S8192x40_S8192x40_0_0 : ∀ a, (![0, 0] : Fin 2 → Nat) a + S8192x40.size a ≤ S8192x40.size a
  h_S8192x40 : 0 < S8192x40.numel
  iota_S100x40_d0_w32 : S100x40.Iotas .tc 32 [0]
  natLt_1_32 : 1 < 32
  reduces_S8192x40_S40 : S8192x40.Reduces [0] S40
  shapeCasts_S40_S1x40 : S40.ShapeCasts S1x40
  shapeCasts_S1x40_S1x40 : S1x40.ShapeCasts S1x40
  broadcasts_S1x40_S100x40 : S1x40.Broadcasts S100x40
  shapeCasts_S100x40_S100x40 : S100x40.ShapeCasts S100x40
  reduces_S8192x40_S8192 : S8192x40.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S1x1 : S1x1.ShapeCasts S1x1
  transposes_S40x100_S100x40_1_0 : S40x100.Transposes [1, 0] S100x40
  bcast_S_S100x40 : S_.BroadcastsInDim S100x40 (![] : Fin 0 → Fin S100x40.rank)
  shapeCasts_S1x1_S_ : S1x1.ShapeCasts S_
  inb_S16384x40_S16384x40_0_0 : ∀ a, (![0, 0] : Fin 2 → Nat) a + S16384x40.size a ≤ S16384x40.size a
  h_S16384x40 : 0 < S16384x40.numel
  slices_S100x40_o0_0_S1x40 : S100x40.Slices ![0, 0] S1x40
  shapeCasts_S1x40_S40 : S1x40.ShapeCasts S40
  broadcasts_S1x40_S16384x40 : S1x40.Broadcasts S16384x40
  slices_S100x40_o1_0_S1x40 : S100x40.Slices ![1, 0] S1x40
  slices_S100x40_o2_0_S1x40 : S100x40.Slices ![2, 0] S1x40
  slices_S100x40_o3_0_S1x40 : S100x40.Slices ![3, 0] S1x40
  slices_S100x40_o4_0_S1x40 : S100x40.Slices ![4, 0] S1x40
  slices_S100x40_o5_0_S1x40 : S100x40.Slices ![5, 0] S1x40
  slices_S100x40_o6_0_S1x40 : S100x40.Slices ![6, 0] S1x40
  slices_S100x40_o7_0_S1x40 : S100x40.Slices ![7, 0] S1x40
  slices_S100x40_o8_0_S1x40 : S100x40.Slices ![8, 0] S1x40
  slices_S100x40_o9_0_S1x40 : S100x40.Slices ![9, 0] S1x40
  slices_S100x40_o10_0_S1x40 : S100x40.Slices ![10, 0] S1x40
  slices_S100x40_o11_0_S1x40 : S100x40.Slices ![11, 0] S1x40
  slices_S100x40_o12_0_S1x40 : S100x40.Slices ![12, 0] S1x40
  slices_S100x40_o13_0_S1x40 : S100x40.Slices ![13, 0] S1x40
  slices_S100x40_o14_0_S1x40 : S100x40.Slices ![14, 0] S1x40
  slices_S100x40_o15_0_S1x40 : S100x40.Slices ![15, 0] S1x40
  slices_S100x40_o16_0_S1x40 : S100x40.Slices ![16, 0] S1x40
  slices_S100x40_o17_0_S1x40 : S100x40.Slices ![17, 0] S1x40
  slices_S100x40_o18_0_S1x40 : S100x40.Slices ![18, 0] S1x40
  slices_S100x40_o19_0_S1x40 : S100x40.Slices ![19, 0] S1x40
  slices_S100x40_o20_0_S1x40 : S100x40.Slices ![20, 0] S1x40
  slices_S100x40_o21_0_S1x40 : S100x40.Slices ![21, 0] S1x40
  slices_S100x40_o22_0_S1x40 : S100x40.Slices ![22, 0] S1x40
  slices_S100x40_o23_0_S1x40 : S100x40.Slices ![23, 0] S1x40
  slices_S100x40_o24_0_S1x40 : S100x40.Slices ![24, 0] S1x40
  slices_S100x40_o25_0_S1x40 : S100x40.Slices ![25, 0] S1x40
  slices_S100x40_o26_0_S1x40 : S100x40.Slices ![26, 0] S1x40
  slices_S100x40_o27_0_S1x40 : S100x40.Slices ![27, 0] S1x40
  slices_S100x40_o28_0_S1x40 : S100x40.Slices ![28, 0] S1x40
  slices_S100x40_o29_0_S1x40 : S100x40.Slices ![29, 0] S1x40
  slices_S100x40_o30_0_S1x40 : S100x40.Slices ![30, 0] S1x40
  slices_S100x40_o31_0_S1x40 : S100x40.Slices ![31, 0] S1x40
  slices_S100x40_o32_0_S1x40 : S100x40.Slices ![32, 0] S1x40
  slices_S100x40_o33_0_S1x40 : S100x40.Slices ![33, 0] S1x40
  slices_S100x40_o34_0_S1x40 : S100x40.Slices ![34, 0] S1x40
  slices_S100x40_o35_0_S1x40 : S100x40.Slices ![35, 0] S1x40
  slices_S100x40_o36_0_S1x40 : S100x40.Slices ![36, 0] S1x40
  slices_S100x40_o37_0_S1x40 : S100x40.Slices ![37, 0] S1x40
  slices_S100x40_o38_0_S1x40 : S100x40.Slices ![38, 0] S1x40
  slices_S100x40_o39_0_S1x40 : S100x40.Slices ![39, 0] S1x40
  slices_S100x40_o40_0_S1x40 : S100x40.Slices ![40, 0] S1x40
  slices_S100x40_o41_0_S1x40 : S100x40.Slices ![41, 0] S1x40
  slices_S100x40_o42_0_S1x40 : S100x40.Slices ![42, 0] S1x40
  slices_S100x40_o43_0_S1x40 : S100x40.Slices ![43, 0] S1x40
  slices_S100x40_o44_0_S1x40 : S100x40.Slices ![44, 0] S1x40
  slices_S100x40_o45_0_S1x40 : S100x40.Slices ![45, 0] S1x40
  slices_S100x40_o46_0_S1x40 : S100x40.Slices ![46, 0] S1x40
  slices_S100x40_o47_0_S1x40 : S100x40.Slices ![47, 0] S1x40
  slices_S100x40_o48_0_S1x40 : S100x40.Slices ![48, 0] S1x40
  slices_S100x40_o49_0_S1x40 : S100x40.Slices ![49, 0] S1x40
  slices_S100x40_o50_0_S1x40 : S100x40.Slices ![50, 0] S1x40
  slices_S100x40_o51_0_S1x40 : S100x40.Slices ![51, 0] S1x40
  slices_S100x40_o52_0_S1x40 : S100x40.Slices ![52, 0] S1x40
  slices_S100x40_o53_0_S1x40 : S100x40.Slices ![53, 0] S1x40
  slices_S100x40_o54_0_S1x40 : S100x40.Slices ![54, 0] S1x40
  slices_S100x40_o55_0_S1x40 : S100x40.Slices ![55, 0] S1x40
  slices_S100x40_o56_0_S1x40 : S100x40.Slices ![56, 0] S1x40
  slices_S100x40_o57_0_S1x40 : S100x40.Slices ![57, 0] S1x40
  slices_S100x40_o58_0_S1x40 : S100x40.Slices ![58, 0] S1x40
  slices_S100x40_o59_0_S1x40 : S100x40.Slices ![59, 0] S1x40
  slices_S100x40_o60_0_S1x40 : S100x40.Slices ![60, 0] S1x40
  slices_S100x40_o61_0_S1x40 : S100x40.Slices ![61, 0] S1x40
  slices_S100x40_o62_0_S1x40 : S100x40.Slices ![62, 0] S1x40
  slices_S100x40_o63_0_S1x40 : S100x40.Slices ![63, 0] S1x40
  slices_S100x40_o64_0_S1x40 : S100x40.Slices ![64, 0] S1x40
  slices_S100x40_o65_0_S1x40 : S100x40.Slices ![65, 0] S1x40
  slices_S100x40_o66_0_S1x40 : S100x40.Slices ![66, 0] S1x40
  slices_S100x40_o67_0_S1x40 : S100x40.Slices ![67, 0] S1x40
  slices_S100x40_o68_0_S1x40 : S100x40.Slices ![68, 0] S1x40
  slices_S100x40_o69_0_S1x40 : S100x40.Slices ![69, 0] S1x40
  slices_S100x40_o70_0_S1x40 : S100x40.Slices ![70, 0] S1x40
  slices_S100x40_o71_0_S1x40 : S100x40.Slices ![71, 0] S1x40
  slices_S100x40_o72_0_S1x40 : S100x40.Slices ![72, 0] S1x40
  slices_S100x40_o73_0_S1x40 : S100x40.Slices ![73, 0] S1x40
  slices_S100x40_o74_0_S1x40 : S100x40.Slices ![74, 0] S1x40
  slices_S100x40_o75_0_S1x40 : S100x40.Slices ![75, 0] S1x40
  slices_S100x40_o76_0_S1x40 : S100x40.Slices ![76, 0] S1x40
  slices_S100x40_o77_0_S1x40 : S100x40.Slices ![77, 0] S1x40
  slices_S100x40_o78_0_S1x40 : S100x40.Slices ![78, 0] S1x40
  slices_S100x40_o79_0_S1x40 : S100x40.Slices ![79, 0] S1x40
  slices_S100x40_o80_0_S1x40 : S100x40.Slices ![80, 0] S1x40
  slices_S100x40_o81_0_S1x40 : S100x40.Slices ![81, 0] S1x40
  slices_S100x40_o82_0_S1x40 : S100x40.Slices ![82, 0] S1x40
  slices_S100x40_o83_0_S1x40 : S100x40.Slices ![83, 0] S1x40
  slices_S100x40_o84_0_S1x40 : S100x40.Slices ![84, 0] S1x40
  slices_S100x40_o85_0_S1x40 : S100x40.Slices ![85, 0] S1x40
  slices_S100x40_o86_0_S1x40 : S100x40.Slices ![86, 0] S1x40
  slices_S100x40_o87_0_S1x40 : S100x40.Slices ![87, 0] S1x40
  slices_S100x40_o88_0_S1x40 : S100x40.Slices ![88, 0] S1x40
  slices_S100x40_o89_0_S1x40 : S100x40.Slices ![89, 0] S1x40
  slices_S100x40_o90_0_S1x40 : S100x40.Slices ![90, 0] S1x40
  slices_S100x40_o91_0_S1x40 : S100x40.Slices ![91, 0] S1x40
  slices_S100x40_o92_0_S1x40 : S100x40.Slices ![92, 0] S1x40
  slices_S100x40_o93_0_S1x40 : S100x40.Slices ![93, 0] S1x40
  slices_S100x40_o94_0_S1x40 : S100x40.Slices ![94, 0] S1x40
  slices_S100x40_o95_0_S1x40 : S100x40.Slices ![95, 0] S1x40
  slices_S100x40_o96_0_S1x40 : S100x40.Slices ![96, 0] S1x40
  slices_S100x40_o97_0_S1x40 : S100x40.Slices ![97, 0] S1x40
  slices_S100x40_o98_0_S1x40 : S100x40.Slices ![98, 0] S1x40
  slices_S100x40_o99_0_S1x40 : S100x40.Slices ![99, 0] S1x40
  transposes_S100x40_S40x100_1_0 : S100x40.Transposes [1, 0] S40x100
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x40.size a ≤ S2097152x40.size a
  hwx0_0 : ∀ i : grid0.Coords, EltTy.bits .f32 = 32 ∨ (Rect.block (s := S2097152x40) S8192x40.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x40.size a ≤ S2097152x40.size a
  hwx0_1 : ∀ i : grid0.Coords, EltTy.bits .f32 = 32 ∨ (Rect.block (s := S2097152x40) S8192x40.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x40.size a ≤ S100x40.size a
  hwx0_2 : ∀ i : grid0.Coords, EltTy.bits .f32 = 32 ∨ (Rect.block (s := S100x40) S100x40.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x40.size a ≤ S2097152x40.size a
  hwx1_0 : ∀ i : grid1.Coords, EltTy.bits .f32 = 32 ∨ (Rect.block (s := S2097152x40) S16384x40.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x40.size a ≤ S2097152x40.size a
  hwx1_1 : ∀ i : grid1.Coords, EltTy.bits .f32 = 32 ∨ (Rect.block (s := S2097152x40) S16384x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100x40.size a ≤ S100x40.size a
  hwx1_2 : ∀ i : grid1.Coords, EltTy.bits .f32 = 32 ∨ (Rect.block (s := S100x40) S100x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16384x40.size a ≤ S2097152x40.size a
  hwx1_3 : ∀ i : grid1.Coords, EltTy.bits .f32 = 32 ∨ (Rect.block (s := S2097152x40) S16384x40.size (cc1_transform_3 i) (hinb1_3 i)).WholeWords (EltTy.packing .f32)

variable [Facts₀]

abbrev win0_0 : Pipeline.Window sig grid0 :=
  Pipeline.Window.ofSpec (Memref.whole main_arg0) S8192x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x40.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S100x40.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S16384x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S16384x40.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S100x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S16384x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2097152x40 : Shape := ⟨2, ![2097152, 40]⟩
abbrev S40x100 : Shape := ⟨2, ![40, 100]⟩
abbrev S_ : Shape := ⟨0, ![]⟩
abbrev S40 : Shape := ⟨1, ![40]⟩
abbrev S1x40 : Shape := ⟨2, ![1, 40]⟩
abbrev S83886080 : Shape := ⟨1, ![83886080]⟩
abbrev S4000 : Shape := ⟨1, ![4000]⟩
abbrev S83886080x1 : Shape := ⟨2, ![83886080, 1]⟩
abbrev S2097152x40x1 : Shape := ⟨3, ![2097152, 40, 1]⟩
abbrev S2097152x40x2 : Shape := ⟨3, ![2097152, 40, 2]⟩

abbrev nBuf : Space → Nat
  | .hbm => 96
  | .vmem => 0
  | .smem => 0
  | _ => 0

abbrev bufTy : (tb : Table) → Fin (tcTables nBuf tb) → BufTy
  | .hbm, ⟨0, _⟩ => ⟨S2097152x40, .f32⟩
  | .hbm, ⟨1, _⟩ => ⟨S2097152x40, .f32⟩
  | .hbm, ⟨2, _⟩ => ⟨S40x100, .f32⟩
  | .hbm, ⟨3, _⟩ => ⟨S2097152x40, .f32⟩
  | .hbm, ⟨4, _⟩ => ⟨S2097152x40, .f32⟩
  | .hbm, ⟨5, _⟩ => ⟨S_, .f32⟩
  | .hbm, ⟨6, _⟩ => ⟨S2097152x40, .f32⟩
  | .hbm, ⟨7, _⟩ => ⟨S2097152x40, .f32⟩
  | .hbm, ⟨8, _⟩ => ⟨S_, .f32⟩
  | .hbm, ⟨9, _⟩ => ⟨S2097152x40, .f32⟩
  | .hbm, ⟨10, _⟩ => ⟨S2097152x40, .f32⟩
  | .hbm, ⟨11, _⟩ => ⟨S2097152x40, .f32⟩
  | .hbm, ⟨12, _⟩ => ⟨S2097152x40, .f32⟩
  | .hbm, ⟨13, _⟩ => ⟨S_, .f32⟩
  | .hbm, ⟨14, _⟩ => ⟨S2097152x40, .f32⟩
  | .hbm, ⟨15, _⟩ => ⟨S2097152x40, .f32⟩
  | .hbm, ⟨16, _⟩ => ⟨S2097152x40, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S2097152x40, .i32⟩
  | .hbm, ⟨21, _⟩ => ⟨S2097152x40, .i32⟩
  | .hbm, ⟨22, _⟩ => ⟨S_, .i32⟩
  | .hbm, ⟨23, _⟩ => ⟨S2097152x40, .i32⟩
  | .hbm, ⟨24, _⟩ => ⟨S2097152x40, .i32⟩
  | .hbm, ⟨25, _⟩ => ⟨S40, .i32⟩
  | .hbm, ⟨26, _⟩ => ⟨S1x40, .i32⟩
  | .hbm, ⟨27, _⟩ => ⟨S_, .i32⟩
  | .hbm, ⟨28, _⟩ => ⟨S1x40, .i32⟩
  | .hbm, ⟨29, _⟩ => ⟨S1x40, .i32⟩
  | .hbm, ⟨30, _⟩ => ⟨S2097152x40, .i32⟩
  | .hbm, ⟨31, _⟩ => ⟨S2097152x40, .i32⟩
  | .hbm, ⟨32, _⟩ => ⟨S83886080, .i32⟩
  | .hbm, ⟨33, _⟩ => ⟨S_, .f32⟩
  | .hbm, ⟨34, _⟩ => ⟨S4000, .f32⟩
  | .hbm, ⟨35, _⟩ => ⟨S_, .i32⟩
  | .hbm, ⟨36, _⟩ => ⟨S83886080, .i32⟩
  | .hbm, ⟨37, _⟩ => ⟨S83886080, .i1⟩
  | .hbm, ⟨38, _⟩ => ⟨S_, .i32⟩
  | .hbm, ⟨39, _⟩ => ⟨S83886080, .i32⟩
  | .hbm, ⟨40, _⟩ => ⟨S83886080, .i32⟩
  | .hbm, ⟨41, _⟩ => ⟨S83886080, .i32⟩
  | .hbm, ⟨42, _⟩ => ⟨S83886080x1, .i32⟩
  | .hbm, ⟨43, _⟩ => ⟨S_, .f32⟩
  | .hbm, ⟨44, _⟩ => ⟨S83886080, .f32⟩
  | .hbm, ⟨45, _⟩ => ⟨S4000, .f32⟩
  | .hbm, ⟨46, _⟩ => ⟨S40x100, .f32⟩
  | .hbm, ⟨47, _⟩ => ⟨S_, .f32⟩
  | .hbm, ⟨48, _⟩ => ⟨S40x100, .f32⟩
  | .hbm, ⟨49, _⟩ => ⟨S40x100, .i1⟩
  | .hbm, ⟨50, _⟩ => ⟨S_, .f32⟩
  | .hbm, ⟨51, _⟩ => ⟨S40x100, .f32⟩
  | .hbm, ⟨52, _⟩ => ⟨S40x100, .f32⟩
  | .hbm, ⟨53, _⟩ => ⟨S_, .f32⟩
  | .hbm, ⟨54, _⟩ => ⟨S40x100, .f32⟩
  | .hbm, ⟨55, _⟩ => ⟨S40x100, .f32⟩
  | .hbm, ⟨56, _⟩ => ⟨S40x100, .f32⟩
  | .hbm, ⟨57, _⟩ => ⟨S40x100, .f32⟩
  | .hbm, ⟨58, _⟩ => ⟨S40, .i32⟩
  | .hbm, ⟨59, _⟩ => ⟨S1x40, .i32⟩
  | .hbm, ⟨60, _⟩ => ⟨S_, .i32⟩
  | .hbm, ⟨61, _⟩ => ⟨S1x40, .i32⟩
  | .hbm, ⟨62, _⟩ => ⟨S1x40, .i1⟩
  | .hbm, ⟨63, _⟩ => ⟨S_, .i32⟩
  | .hbm, ⟨64, _⟩ => ⟨S1x40, .i32⟩
  | .hbm, ⟨65, _⟩ => ⟨S1x40, .i32⟩
  | .hbm, ⟨66, _⟩ => ⟨S1x40, .i32⟩
  | .hbm, ⟨67, _⟩ => ⟨S_, .i32⟩
  | .hbm, ⟨68, _⟩ => ⟨S2097152x40, .i32⟩
  | .hbm, ⟨69, _⟩ => ⟨S2097152x40, .i1⟩
  | .hbm, ⟨70, _⟩ => ⟨S_, .i32⟩
  | .hbm, ⟨71, _⟩ => ⟨S2097152x40, .i32⟩
  | .hbm, ⟨72, _⟩ => ⟨S2097152x40, .i32⟩
  | .hbm, ⟨73, _⟩ => ⟨S2097152x40, .i32⟩
  | .hbm, ⟨74, _⟩ => ⟨S2097152x40, .i32⟩
  | .hbm, ⟨75, _⟩ => ⟨S2097152x40x1, .i32⟩
  | .hbm, ⟨76, _⟩ => ⟨S2097152x40x1, .i32⟩
  | .hbm, ⟨77, _⟩ => ⟨S2097152x40x2, .i32⟩
  | .hbm, ⟨78, _⟩ => ⟨S2097152x40, .f32⟩
  | .hbm, ⟨79, _⟩ => ⟨S_, .f32⟩
  | .hbm, ⟨80, _⟩ => ⟨S2097152x40, .f32⟩
  | .hbm, ⟨81, _⟩ => ⟨S2097152x40, .f32⟩
  | .hbm, ⟨82, _⟩ => ⟨S_, .f32⟩
  | .hbm, ⟨83, _⟩ => ⟨S2097152x40, .f32⟩
  | .hbm, ⟨84, _⟩ => ⟨S2097152x40, .f32⟩
  | .hbm, ⟨85, _⟩ => ⟨S2097152x40, .f32⟩
  | .hbm, ⟨86, _⟩ => ⟨S2097152x40, .f32⟩
  | .hbm, ⟨87, _⟩ => ⟨S2097152x40, .f32⟩
  | .hbm, ⟨88, _⟩ => ⟨S2097152x40, .f32⟩
  | .hbm, ⟨89, _⟩ => ⟨S2097152x40, .f32⟩
  | .hbm, ⟨90, _⟩ => ⟨S2097152x40, .f32⟩
  | .hbm, ⟨91, _⟩ => ⟨S2097152x40, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S2097152x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_11 : Ref sig .tc := ⟨.hbm, 60, rfl⟩
abbrev main_v39 : Ref sig .tc := ⟨.hbm, 61, rfl⟩
abbrev main_v40 : Ref sig .tc := ⟨.hbm, 62, rfl⟩
abbrev main_c_12 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_13 : Ref sig .tc := ⟨.hbm, 67, rfl⟩
abbrev main_v44 : Ref sig .tc := ⟨.hbm, 68, rfl⟩
abbrev main_v45 : Ref sig .tc := ⟨.hbm, 69, rfl⟩
abbrev main_c_14 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_15 : Ref sig .tc := ⟨.hbm, 79, rfl⟩
abbrev main_v54 : Ref sig .tc := ⟨.hbm, 80, rfl⟩
abbrev main_v55 : Ref sig .tc := ⟨.hbm, 81, rfl⟩
abbrev main_cst_16 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_17 : Ref sig .tc := ⟨.hbm, 92, rfl⟩
abbrev main_v65 : Ref sig .tc := ⟨.hbm, 93, rfl⟩
abbrev main_cst_18 : Ref sig .tc := ⟨.hbm, 94, rfl⟩
abbrev main_v66 : Ref sig .tc := ⟨.hbm, 95, rfl⟩

abbrev nD : Nat := 1
abbrev τ : Topo := Topo.v7x

variable {F : FTy → Type} [FloatOps F]

class Facts₀ : Prop where
  bcast_S_S2097152x40 : S_.BroadcastsInDim S2097152x40 (![] : Fin 0 → Fin S2097152x40.rank)
  bcast_S40_S1x40_1 : S40.BroadcastsInDim S1x40 (![1] : Fin 1 → Fin S1x40.rank)
  bcast_S_S1x40 : S_.BroadcastsInDim S1x40 (![] : Fin 0 → Fin S1x40.rank)
  bcast_S1x40_S2097152x40_0_1 : S1x40.BroadcastsInDim S2097152x40 (![0, 1] : Fin 2 → Fin S2097152x40.rank)
  shapeCasts_S2097152x40_S83886080 : S2097152x40.ShapeCasts S83886080
  bcast_S_S4000 : S_.BroadcastsInDim S4000 (![] : Fin 0 → Fin S4000.rank)
  bcast_S_S83886080 : S_.BroadcastsInDim S83886080 (![] : Fin 0 → Fin S83886080.rank)
  bcast_S83886080_S83886080x1_0 : S83886080.BroadcastsInDim S83886080x1 (![0] : Fin 1 → Fin S83886080x1.rank)
  shapeCasts_S4000_S40x100 : S4000.ShapeCasts S40x100
  bcast_S_S40x100 : S_.BroadcastsInDim S40x100 (![] : Fin 0 → Fin S40x100.rank)
  bcast_S2097152x40_S2097152x40x1_0_1 : S2097152x40.BroadcastsInDim S2097152x40x1 (![0, 1] : Fin 2 → Fin S2097152x40x1.rank)
  concatenates_S2097152x40x1_S2097152x40x1_S2097152x40x2_d2 : Shape.Concatenates [S2097152x40x1, S2097152x40x1] S2097152x40x2 2
  reducesTo_S2097152x40_S_d0_1 : S2097152x40.ReducesTo [0, 1] S_
  h_S_ : 0 < S_.numel
  scatter_S4000_S83886080x1_S83886080_n_0_0_1_wf : ScatterDims.WF S4000 S83886080x1 S83886080 [] [0] [0] 1
  gather_S40x100_S2097152x40x2_S2097152x40_n_01_n_n_01_2_11_wf : GatherDims.WF S40x100 S2097152x40x2 S2097152x40 [] [0, 1] [] [0, 1] [] 2 ![1, 1]

variable [Facts₀]

def scatter_S4000_S83886080x1_S83886080_n_0_0_1 : ScatterDims S4000 S83886080x1 S83886080 where
  updateWindowDims := []
  insertedWindowDims := [0]
  scatterDimsToOperandDims := [0]
  indexVectorDim := 1
  wf := scatter_S4000_S83886080x1_S83886080_n_0_0_1_wf
def gather_S40x100_S2097152x40x2_S2097152x40_n_01_n_n_01_2_11 : GatherDims S40x100 S2097152x40x2 S2097152x40 where
  offsetDims := []
  collapsedSliceDims := [0, 1]
  operandBatchingDims := []
  startIndicesBatchingDims := []
  startIndexMap := [0, 1]
  indexVectorDim := 2
  sliceSizes := ![1, 1]
  wf := gather_S40x100_S2097152x40x2_S2097152x40_n_01_n_n_01_2_11_wf

class Facts : Prop extends Facts₀ where

variable [Facts]
-- ==== Proof.Spec.lean ====
/-
  The mathematics both programs compute, over the extended reals.

  For predictions `P` and targets `T` (2097152 samples by 40 classes) and a running histogram `A` (40 classes by 100 bins):
  every entry gets the bin `gradBin` of its gradient magnitude `|σ(P) − T|·100` (truncated to an integer and clipped to
  0 … 99); `cnt c b` counts the samples of class `c` whose bin is `b`; the histogram is updated where the count is positive
  (`accNew`); every entry's weight is the batch size over the updated histogram at its own class and bin (`weight`); and
  the loss is the mean of the binary cross-entropy with logits (`lossSum` over the number of entries).
-/
import Idealize.ShloMosaic.PureOps.Ideal
import Idealize.ShloMosaic.Lib.ValueIdx

noncomputable section

open scoped BigOperators

namespace Cert.Ghm

open Idealize.ShloMosaic Idealize.ShloMosaic.ValueIdx

/-- The sample-by-class shape and the class-by-bin shape. -/
abbrev SP : Shape := ⟨2, ![2097152, 40]⟩
abbrev SA : Shape := ⟨2, ![40, 100]⟩
abbrev SAt : Shape := ⟨2, ![100, 40]⟩

/-- The bin of one entry: `|σ(x) − t| · 100` truncated toward zero to a 32-bit integer, clipped into 0 … 99. -/
def gradBin (x t : EReal) : BitVec 32 :=
  IntOp.minsi 99#32 (IntOp.maxsi 0#32 (FloatOps.fptosi (F := Ideal) (φ := .f32) 32
    (FloatOps.mulf (F := Ideal) (φ := .f32) (FloatOps.absf (F := Ideal) (φ := .f32)
      (FloatOps.subf (F := Ideal) (φ := .f32) (FloatOps.logistic (F := Ideal) (φ := .f32) x) t))
      (FloatOps.ofBits (F := Ideal) .f32 0x42C80000#32))))

/-- The bin is one of 0 … 99: as an index of the bin axis. -/
def binFin (x t : EReal) : Fin 100 := ⟨min (gradBin x t).toInt.toNat 99, by omega⟩

/-- A one-bit condition as the float 0 or 1 (widened to 32 bits, converted signed). -/
def ind (b : BitVec 1) : EReal := FloatOps.sitofp (F := Ideal) .f32 (b.setWidth 32)

/-- How many samples of class `c` fall in bin `b`. -/
def cnt (P T : SP.Idx → EReal) (c : Fin 40) (b : Fin 100) : EReal :=
  ∑ r : Fin 2097152, if gradBin (P (ix2 r c)) (T (ix2 r c)) = BitVec.ofNat 32 b.val then (1 : EReal) else 0

/-- The updated histogram: where the batch populated the bin, `0.6 · A + 0.4 · count` (the two factors as their
    single-precision words), elsewhere `A`. -/
def accNew (P T : SP.Idx → EReal) (A : SA.Idx → EReal) (c : Fin 40) (b : Fin 100) : EReal :=
  Scalar.select (FloatOps.cmpf (F := Ideal) (φ := .f32) .ogt (cnt P T c b) (FloatOps.ofBits (F := Ideal) .f32 0x00000000#32))
    (FloatOps.addf (F := Ideal) (φ := .f32)
      (FloatOps.mulf (F := Ideal) (φ := .f32) (FloatOps.ofBits (F := Ideal) .f32 0x3F19999A#32) (A (ix2 c b)))
      (FloatOps.mulf (F := Ideal) (φ := .f32) (FloatOps.ofBits (F := Ideal) .f32 0x3ECCCCCD#32) (cnt P T c b)))
    (A (ix2 c b))

/-- One entry's weight: the batch size 2097152 over the updated histogram at the entry's class and bin. -/
def weight (P T : SP.Idx → EReal) (A : SA.Idx → EReal) (r : Fin 2097152) (c : Fin 40) : EReal :=
  Ideal.div (Ideal.ofBits .f32 0x4A000000#32) (accNew P T A c (binFin (P (ix2 r c)) (T (ix2 r c))))

/-- One entry's binary cross-entropy with logits: `max(x, 0) − x·t + log(1 + e^(−|x|))`. -/
def entryLoss (x t : EReal) : EReal :=
  FloatOps.addf (F := Ideal) (φ := .f32)
    (FloatOps.subf (F := Ideal) (φ := .f32)
      (FloatOps.maximumf (F := Ideal) (φ := .f32) x (FloatOps.ofBits (F := Ideal) .f32 0x00000000#32))
      (FloatOps.mulf (F := Ideal) (φ := .f32) x t))
    (FloatOps.log1p (F := Ideal) (φ := .f32) (FloatOps.exp (F := Ideal) (φ := .f32)
      (FloatOps.negf (F := Ideal) (φ := .f32) (FloatOps.absf (F := Ideal) (φ := .f32) x))))

/-- The loss summed over every entry. -/
def lossSum (P T : SP.Idx → EReal) : EReal :=
  ∑ r : Fin 2097152, ∑ c : Fin 40, entryLoss (P (ix2 r c)) (T (ix2 r c))

/-- The mean loss: the sum over the number of entries, 83886080. -/
def loss (P T : SP.Idx → EReal) : EReal := Ideal.div (lossSum P T) (Ideal.ofBits .f32 0x4CA00000#32)

/-! ## The three results as arrays -/

def lossArr (P T : SP.Idx → EReal) : (⟨0, ![]⟩ : Shape).Idx → EReal := fun _ => loss P T
def weightArr (P T : SP.Idx → EReal) (A : SA.Idx → EReal) : SP.Idx → EReal := fun i => weight P T A (i 0) (i 1)
def accArr (P T : SP.Idx → EReal) (A : SA.Idx → EReal) : SA.Idx → EReal := fun i => accNew P T A (i 0) (i 1)

theorem weightArr_ix2 (P T : SP.Idx → EReal) (A : SA.Idx → EReal) (r : Fin 2097152) (c : Fin 40) :
    weightArr P T A (ix2 r c) = weight P T A r c := rfl
theorem accArr_ix2 (P T : SP.Idx → EReal) (A : SA.Idx → EReal) (c : Fin 40) (b : Fin 100) :
    accArr P T A (ix2 c b) = accNew P T A c b := rfl

end Cert.Ghm

end
-- ==== Proof.SpecLemmas.lean ====
/-
  Scalar and summation facts about the specification: the two float words 0 and 1, a one-bit condition as a float, the bin as
  one of 0 … 99, and the sum over all 2097152 samples cut into 256 consecutive blocks of 8192.
-/
import proofs.«157406_j13846974562932_1_alg».proof.Proof.Spec

noncomputable section

open scoped BigOperators

namespace Cert.Ghm

open Idealize.ShloMosaic Idealize.ShloMosaic.ValueIdx

/-- The single-precision word of `+0.0` is the real 0. -/
theorem ofBits_zero : Ideal.ofBits .f32 0x00000000#32 = 0 := by
  simp [Ideal.ofBits, Ideal.ieee]

/-- The single-precision word of `1.0` is the real 1. -/
theorem ofBits_one : Ideal.ofBits .f32 0x3F800000#32 = 1 := by
  simp [Ideal.ofBits, Ideal.ieee, -EReal.coe_mul]; norm_num

/-- The one-bit condition 1 is the float 1, the condition 0 the float 0. -/
theorem ind_one : ind 1#1 = 1 := by
  show (((BitVec.setWidth 32 1#1).toInt : ℝ) : EReal) = 1
  have h : (BitVec.setWidth 32 1#1).toInt = 1 := by decide
  rw [h]; simp
theorem ind_zero : ind 0#1 = 0 := by
  show (((BitVec.setWidth 32 0#1).toInt : ℝ) : EReal) = 0
  have h : (BitVec.setWidth 32 0#1).toInt = 0 := by decide
  rw [h]; simp

/-- An integer equality test, as a float, is the indicator of the equality. -/
theorem ind_cmpi_eq (a b : BitVec 32) : ind (IntOp.cmpi .eq a b) = if a = b then (1 : EReal) else 0 := by
  by_cases h : a = b
  · subst h
    simp [IntOp.cmpi, ind_one]
  · have hb : (a == b) = false := by simpa using h
    simp only [IntOp.cmpi, hb, if_neg h]
    exact ind_zero

/-- Clipping any 32-bit word below by 0 and above by 99 (signed) leaves a word whose signed value is between 0 and 99. -/
theorem clip_bounds (w : BitVec 32) :
    0 ≤ (IntOp.minsi 99#32 (IntOp.maxsi 0#32 w)).toInt ∧ (IntOp.minsi 99#32 (IntOp.maxsi 0#32 w)).toInt ≤ 99 := by
  have h99 : (99#32 : BitVec 32).toInt = 99 := by decide
  have h0 : (0#32 : BitVec 32).toInt = 0 := by decide
  simp only [IntOp.minsi, IntOp.maxsi, BitVec.slt]
  split_ifs with h1 h2 h2 <;> simp only [decide_eq_true_eq, h99, h0] at * <;> omega

/-- Read as a signed integer, the clipped bin is that number. -/
theorem gradBin_toInt (x t : EReal) : (gradBin x t).toInt = ((binFin x t).val : Int) := by
  have hb := clip_bounds (FloatOps.fptosi (F := Ideal) (φ := .f32) 32
    (FloatOps.mulf (F := Ideal) (φ := .f32) (FloatOps.absf (F := Ideal) (φ := .f32)
      (FloatOps.subf (F := Ideal) (φ := .f32) (FloatOps.logistic (F := Ideal) (φ := .f32) x) t))
      (FloatOps.ofBits (F := Ideal) .f32 0x42C80000#32)))
  change 0 ≤ (gradBin x t).toInt ∧ (gradBin x t).toInt ≤ 99 at hb
  show (gradBin x t).toInt = ((min (gradBin x t).toInt.toNat 99 : Nat) : Int)
  omega

/-- The clipped bin is the 32-bit word of a number below 100. -/
theorem gradBin_eq (x t : EReal) : gradBin x t = BitVec.ofNat 32 (binFin x t).val := by
  calc gradBin x t = BitVec.ofInt 32 (gradBin x t).toInt := BitVec.ofInt_toInt.symm
    _ = BitVec.ofNat 32 (binFin x t).val := by rw [gradBin_toInt, BitVec.ofInt_natCast]

/-- Two numbers below 100 with the same 32-bit word are equal. -/
theorem ofNat_eq_iff (a b : Fin 100) : BitVec.ofNat 32 a.val = BitVec.ofNat 32 b.val ↔ a = b := by
  constructor
  · intro h
    have h' := congrArg BitVec.toNat h
    simp only [BitVec.toNat_ofNat] at h'
    have ha := a.isLt
    have hb := b.isLt
    apply Fin.ext
    omega
  · rintro rfl; rfl

/-- The bin of an entry equals the word of `b` exactly when its bin index is `b`. -/
theorem gradBin_eq_iff (x t : EReal) (b : Fin 100) : gradBin x t = BitVec.ofNat 32 b.val ↔ binFin x t = b := by
  rw [gradBin_eq, ofNat_eq_iff]

/-- A sum over the first `8192 * n` naturals, taken as `n` consecutive blocks of 8192. -/
theorem sum_range_blocks_prefix {α : Type} [AddCommMonoid α] (g : ℕ → α) (n : ℕ) :
    ∑ t ∈ Finset.range n, ∑ q : Fin 8192, g (8192 * t + q.val) = ∑ r ∈ Finset.range (8192 * n), g r := by
  induction n with
  | zero => simp
  | succ n ih =>
    rw [Finset.sum_range_succ, ih, Nat.mul_succ, Finset.sum_range_add,
      Fin.sum_univ_eq_sum_range (fun q => g (8192 * n + q)) 8192]

/-- A sum over the first 2097152 naturals, taken as 256 consecutive blocks of 8192. -/
theorem sum_range_blocks {α : Type} [AddCommMonoid α] (g : ℕ → α) :
    ∑ t ∈ Finset.range 256, ∑ q : Fin 8192, g (8192 * t + q.val) = ∑ r : Fin 2097152, g r.val := by
  rw [sum_range_blocks_prefix g 256, Fin.sum_univ_eq_sum_range g 2097152]

end Cert.Ghm

end
-- ==== Proof.K0Counts.lean ====
/-
  The histogram kernel's body, output 2 (the [100, 40] bin-by-class counts): what one grid point adds.
  From one [8192, 40] block of predictions and targets the body forms, bin by bin, the column sums of the mask "this entry's
  bin is b" and places each in row b; the hundred rows together are the block's counts `binCounts`. The first point stores
  them over a zeroed buffer, every later point adds them to what the point before left.
  The hundred bin steps are one recursion `accUpTo` on the number of bins taken; at (b, c) the first `n` steps have
  contributed the column's count of bin `b` exactly when `b < n` (induction on `n`), so all hundred give every row its count.
-/
import proofs.«157406_j13846974562932_1_alg».proof.Proof.Gen.KernelIdeal.Frame
import proofs.«157406_j13846974562932_1_alg».proof.Proof.SpecLemmas
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.GhmK0

open Cert.KernelIdeal Cert.KernelIdeal.Gen Cert.Ghm

theorem hz : (![0, 0] : Fin 2 → Nat) = fun _ => 0 := funext fun a => by fin_cases a <;> rfl

/-- The counts of one block of 8192 samples: entry (b, c) is how many of the block's rows have bin `b` in class `c`. -/
def binCounts (x0 x1 : Vec Ideal S8192x40 .f32) : Vec Ideal S100x40 .f32 :=
  fun j => ∑ q : Fin 8192, if gradBin (x0 (ix2 q (j 1))) (x1 (ix2 q (j 1))) = BitVec.ofNat 32 (j 0).val then (1 : EReal) else 0

/-- One bin's contribution to the block's counts: the column sums of the mask "the entry's bin is `bv`", placed in the rows
    whose number is `bv` (zero in the other rows). -/
def binTerm (bins : IVec S8192x40 32) (bv : BitVec 32) : FVec Ideal S100x40 .f32 :=
  select (cmpi .eq (iota .tc S100x40 32 [0] iota_S100x40_d0_w32) (broadcast S100x40 bv))
    (broadcastTo S100x40 (shapeCast S1x40 (shapeCast S1x40
      (multiReduction .add [0] S40 (sitofp .f32 (extui 32 (cmpi .eq bins (broadcast S8192x40 bv)) natLt_1_32)) 0x00000000#32
        reduces_S8192x40_S40 (.inl rfl) rfl) shapeCasts_S40_S1x40) shapeCasts_S1x40_S1x40) broadcasts_S1x40_S100x40)
    (broadcast S100x40 (Scalar.ofBits .f32 0x00000000#32))

/-- The first `n` bins' contributions added up from the zero block, in the body's order. -/
def accUpTo (bins : IVec S8192x40 32) : ℕ → FVec Ideal S100x40 .f32
  | 0 => broadcast S100x40 (Scalar.ofBits .f32 0x00000000#32)
  | n + 1 => addf (accUpTo bins n) (binTerm bins (BitVec.ofNat 32 n))

/-- The body's bins are the specification's, entry by entry. -/
theorem bins_apply (x0 x1 : Vec Ideal S8192x40 .f32) (q : Fin 8192) (c : Fin 40) :
    k0_pay4 (F := Ideal) x0 x1 (ix2 q c) = gradBin (x0 (ix2 q c)) (x1 (ix2 q c)) := rfl

/-- An integer equality test of a word with itself is the bit 1, of two different words the bit 0. -/
theorem cmpi_eq_self (x : BitVec 32) : IntOp.cmpi .eq x x = 1#1 := by simp [IntOp.cmpi]
theorem cmpi_eq_of_ne {x y : BitVec 32} (h : x ≠ y) : IntOp.cmpi .eq x y = 0#1 := by
  have hb : (x == y) = false := beq_eq_false_iff_ne.mpr h
  show BitVec.ofBool (x == y) = 0#1
  rw [hb]
  rfl

/-- Row `q` of column `c`: the column index with the row put back on the summed axis. -/
theorem lift_col (q : Fin 8192) (c : Fin 40) : reduces_S8192x40_S40.lift (ix1 c) q = ix2 q c := by
  funext a
  match a with
  | ⟨0, _⟩ => rfl
  | ⟨1, _⟩ => rfl

/-- The column sum of the mask "the entry's bin is `bv`" counts the column's entries with that bin. -/
theorem colsum_apply (bins : IVec S8192x40 32) (bv : BitVec 32) (c : Fin 40) :
    multiReduction .add [0] S40 (sitofp (F := Ideal) .f32 (extui 32 (cmpi .eq bins (broadcast S8192x40 bv)) natLt_1_32)) 0x00000000#32
        reduces_S8192x40_S40 (.inl rfl) rfl (ix1 c)
      = ∑ q : Fin 8192, if bins (ix2 q c) = bv then (1 : EReal) else 0 := by
  refine (Ideal.multiReduction_add_single (sitofp (F := Ideal) .f32 (extui 32 (cmpi .eq bins (broadcast S8192x40 bv)) natLt_1_32))
    0x00000000#32 reduces_S8192x40_S40 (.inl rfl) rfl (ix1 c)).trans ?_
  show ∑ q : Fin 8192, _ = _
  refine Finset.sum_congr rfl fun q _ => ?_
  rw [lift_col]
  exact ind_cmpi_eq (bins (ix2 q c)) bv

/-- One bin's contribution at (b, c): the column's count when `b` is that bin, else zero. -/
theorem binTerm_apply (bins : IVec S8192x40 32) (bv : BitVec 32) (b : Fin 100) (c : Fin 40) :
    binTerm bins bv (ix2 b c)
      = if BitVec.ofNat 32 b.val = bv then ∑ q : Fin 8192, (if bins (ix2 q c) = bv then (1 : EReal) else 0) else 0 := by
  have hio : iota .tc S100x40 32 [0] iota_S100x40_d0_w32 (ix2 b c) = BitVec.ofNat 32 b.val :=
    iota_single_apply .tc S100x40 32 0 iota_S100x40_d0_w32 (ix2 b c)
  unfold binTerm
  rw [select_apply]
  show Scalar.select (IntOp.cmpi .eq (iota .tc S100x40 32 [0] iota_S100x40_d0_w32 (ix2 b c)) bv) _ _ = _
  rw [hio]
  by_cases h : BitVec.ofNat 32 b.val = bv
  · rw [if_pos h, h, cmpi_eq_self, select_one, broadcastTo_1b_ab_apply, shapeCast_self, shapeCast_a_1a_apply, colsum_apply]
  · rw [if_neg h, cmpi_eq_of_ne h, select_zero]
    exact ofBits_zero

/-- The first `n` contributions at (b, c): the column's count of bin `b` once `b` is among them, zero before. -/
theorem accUpTo_apply (bins : IVec S8192x40 32) (n : ℕ) (hn : n ≤ 100) (b : Fin 100) (c : Fin 40) :
    accUpTo bins n (ix2 b c)
      = if b.val < n then ∑ q : Fin 8192, (if bins (ix2 q c) = BitVec.ofNat 32 b.val then (1 : EReal) else 0) else 0 := by
  induction n with
  | zero =>
    rw [if_neg (Nat.not_lt_zero _)]
    exact ofBits_zero
  | succ n ih =>
    have hinj : BitVec.ofNat 32 b.val = BitVec.ofNat 32 n ↔ b.val = n := by
      constructor
      · intro h
        have h' := congrArg BitVec.toNat h
        rw [BitVec.toNat_ofNat, BitVec.toNat_ofNat] at h'
        have hb := b.isLt
        omega
      · intro h; rw [h]
    show accUpTo bins n (ix2 b c) + binTerm bins (BitVec.ofNat 32 n) (ix2 b c) = _
    rw [ih (by omega), binTerm_apply]
    by_cases h1 : b.val < n
    · rw [if_pos h1, if_neg (fun h => by have := hinj.mp h; omega), if_pos (by omega), add_zero]
    · by_cases h2 : b.val = n
      · rw [if_neg h1, if_pos (hinj.mpr h2), if_pos (by omega), zero_add, h2]
      · rw [if_neg h1, if_neg (fun h => h2 (hinj.mp h)), if_neg (by omega), add_zero]

/-- At a later point the body leaves what the buffer held plus the block's counts. -/
theorem out_B_2 (c : Dev nD) (i : grid0.Coords) (a1 : Memref sig .tc .vmem S8192x40 .f32) (h1 : a1.IsWhole)
    (a2 : Memref sig .tc .vmem S8192x40 .f32) (h2 : a2.IsWhole) (a3 : Memref sig .tc .vmem S100x40 .f32) (h3 : a3.IsWhole)
    (a4 : Memref sig .tc .vmem S1x1 .f32) (h4 : a4.IsWhole) (hc : ¬cond0_0 i) (x0 x1 : Vec Ideal S8192x40 .f32)
    (xo2 : Vec Ideal S100x40 .f32) (xo3 : Vec Ideal S1x1 .f32) :
    out0_B_2 (F := Ideal) c i a1 h1 a2 h2 a3 h3 a4 h4 hc x0 x1 xo2 xo3 = fun j => xo2 j + binCounts x0 x1 j := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h3.read_unread, View.ld_unit_zero (S := S8192x40) hz,
    View.ld_unit_zero (S := S100x40) hz]
  change addf (shapeCast S100x40 xo2 shapeCasts_S100x40_S100x40) (accUpTo (k0_pay4 x0 x1) 100) = _
  rw [shapeCast_self]
  funext j
  obtain ⟨b, cc, rfl⟩ : ∃ (b : Fin 100) (cc : Fin 40), j = ix2 b cc := ⟨j 0, j 1, eq_ix2 j⟩
  show xo2 (ix2 b cc) + accUpTo (k0_pay4 x0 x1) 100 (ix2 b cc) = xo2 (ix2 b cc) + binCounts x0 x1 (ix2 b cc)
  rw [accUpTo_apply _ 100 le_rfl, if_pos b.isLt]
  rfl

/-- At the first point the body leaves the block's counts (added to the zeros it has just stored). -/
theorem out_A_2 (c : Dev nD) (i : grid0.Coords) (a1 : Memref sig .tc .vmem S8192x40 .f32) (h1 : a1.IsWhole)
    (a2 : Memref sig .tc .vmem S8192x40 .f32) (h2 : a2.IsWhole) (a3 : Memref sig .tc .vmem S100x40 .f32) (h3 : a3.IsWhole)
    (a4 : Memref sig .tc .vmem S1x1 .f32) (h4 : a4.IsWhole) (hc : cond0_0 i) (x0 x1 : Vec Ideal S8192x40 .f32) :
    out0_A_2 (F := Ideal) c i a1 h1 a2 h2 a3 h3 a4 h4 hc x0 x1 = binCounts x0 x1 := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S100x40) hz, View.readCov_unit_zero (S := S100x40) _ hz]
  simp only [View.readAt_eq_ld, h1.read_unread, h2.read_unread, View.ld_unit_zero (S := S8192x40) hz,
    View.ld_unit_zero (S := S100x40) hz]
  change addf (shapeCast S100x40 (k0_pay2 (F := Ideal)) shapeCasts_S100x40_S100x40) (accUpTo (k0_pay4 x0 x1) 100) = _
  rw [shapeCast_self]
  funext j
  obtain ⟨b, cc, rfl⟩ : ∃ (b : Fin 100) (cc : Fin 40), j = ix2 b cc := ⟨j 0, j 1, eq_ix2 j⟩
  show k0_pay2 (F := Ideal) (ix2 b cc) + accUpTo (k0_pay4 x0 x1) 100 (ix2 b cc) = binCounts x0 x1 (ix2 b cc)
  rw [accUpTo_apply _ 100 le_rfl, if_pos b.isLt, show k0_pay2 (F := Ideal) (ix2 b cc) = 0 from ofBits_zero, zero_add]
  rfl

end Cert.KernelIdeal.GhmK0

end
-- ==== Proof.K0Loss.lean ====
/-
  The histogram kernel's body, output 3 (the [1, 1] running loss): what one grid point adds.
  From one [8192, 40] block of predictions and targets the body forms every entry's cross-entropy, sums each row over the 40
  classes and then the 8192 row sums: the block's loss `blockLoss`. The first point stores it over a zeroed cell, every
  later point adds it to what the point before left.
-/
import proofs.«157406_j13846974562932_1_alg».proof.Proof.Gen.KernelIdeal.Frame
import proofs.«157406_j13846974562932_1_alg».proof.Proof.SpecLemmas
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.GhmK0

open Cert.KernelIdeal Cert.KernelIdeal.Gen Cert.Ghm

/-- The loss of one block of 8192 samples, summed over rows and classes. -/
def blockLoss (x0 x1 : Vec Ideal S8192x40 .f32) : EReal :=
  ∑ q : Fin 8192, ∑ c : Fin 40, entryLoss (x0 (ix2 q c)) (x1 (ix2 q c))

/-! ## The two cases' stores, the stored value at its one index, the entry losses -/

namespace Loss

/-- The zero offsets of a store that covers its whole block. -/
theorem hz : (![0, 0] : Fin 2 → Nat) = fun _ => 0 := funext fun a => by fin_cases a <;> rfl

/-- What a later point leaves in the loss cell, as the stored value of its one covering store. -/
theorem piece_B_3 {F : FTy → Type} [FloatOps F] (c : Dev nD) (i : grid0.Coords) (a1 : Memref sig .tc .vmem S8192x40 .f32) (h1 : a1.IsWhole)
    (a2 : Memref sig .tc .vmem S8192x40 .f32) (h2 : a2.IsWhole) (a3 : Memref sig .tc .vmem S100x40 .f32) (h3 : a3.IsWhole)
    (a4 : Memref sig .tc .vmem S1x1 .f32) (h4 : a4.IsWhole) (hc : ¬cond0_0 i) (x0 x1 : Vec F S8192x40 .f32)
    (xo2 : Vec F S100x40 .f32) (xo3 : Vec F S1x1 .f32) :
    out0_B_3 c i a1 h1 a2 h2 a3 h3 a4 h4 hc x0 x1 xo2 xo3 = k0_pay1 x0 x1 (k0_pay69 (F := F)) xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h4.read_unread, View.ld_unit_zero (S := S8192x40) hz,
    View.ld_unit_zero (S := S1x1) hz]

/-- What the first point leaves in the loss cell: the stored value over the zero cell it has just written and read back. -/
theorem piece_A_3 {F : FTy → Type} [FloatOps F] (c : Dev nD) (i : grid0.Coords) (a1 : Memref sig .tc .vmem S8192x40 .f32) (h1 : a1.IsWhole)
    (a2 : Memref sig .tc .vmem S8192x40 .f32) (h2 : a2.IsWhole) (a3 : Memref sig .tc .vmem S100x40 .f32) (h3 : a3.IsWhole)
    (a4 : Memref sig .tc .vmem S1x1 .f32) (h4 : a4.IsWhole) (hc : cond0_0 i) (x0 x1 : Vec F S8192x40 .f32) :
    out0_A_3 c i a1 h1 a2 h2 a3 h3 a4 h4 hc x0 x1 = k0_pay1 x0 x1 (k0_pay69 (F := F)) (k0_pay3 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S8192x40) hz]

/-- A sum along the class axis: the reduction over axis 1 of an [8192, 40] block at row `q` is the sum over the 40 classes. -/
theorem red_classes (e : FVec Ideal S8192x40 .f32) (acc : BitVec 32) (h : S8192x40.Reduces [1] S8192) (hφ : FKind.Formats .f32)
    (hacc : acc = FKind.add.neutral .f32 hφ) (q : Fin 8192) :
    multiReduction .add [1] S8192 e acc h hφ hacc (ix1 q) = ∑ c : Fin 40, e (ix2 q c) := by
  refine (Ideal.multiReduction_add_single e acc h hφ hacc (ix1 q)).trans ?_
  show ∑ c : Fin 40, e (h.lift (ix1 q) c) = ∑ c : Fin 40, e (ix2 q c)
  refine Finset.sum_congr rfl fun c _ => congrArg e ?_
  funext a
  match a with
  | ⟨0, _⟩ => exact Fin.ext rfl
  | ⟨1, _⟩ => exact Fin.ext rfl

/-- A sum along the row axis: the reduction over axis 0 of an [8192, 1] column is the sum over the 8192 rows. -/
theorem red_rows (e : FVec Ideal S8192x1 .f32) (acc : BitVec 32) (h : S8192x1.Reduces [0] S1) (hφ : FKind.Formats .f32)
    (hacc : acc = FKind.add.neutral .f32 hφ) (u : Fin 1) :
    multiReduction .add [0] S1 e acc h hφ hacc (ix1 u) = ∑ q : Fin 8192, e (ix2 q (0 : Fin 1)) := by
  refine (Ideal.multiReduction_add_single e acc h hφ hacc (ix1 u)).trans ?_
  show ∑ q : Fin 8192, e (h.lift (ix1 u) q) = ∑ q : Fin 8192, e (ix2 q (0 : Fin 1))
  refine Finset.sum_congr rfl fun q _ => congrArg e ?_
  funext a
  match a with
  | ⟨0, _⟩ => exact Fin.ext rfl
  | ⟨1, _⟩ => exact Fin.ext (by show (u : ℕ) = 0; omega)

/-- A vector of 8192 entries viewed as an [8192, 1] column reads, at `(q, u)`, entry `q`. -/
theorem col_apply {α : Type} (x : S8192.Idx → α) (h : S8192.ShapeCasts S8192x1) (q : Fin 8192) (u : Fin 1) :
    shapeCast S8192x1 x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- The two reductions and the two re-shapings between them: the one cell holds the sum over all rows and classes. -/
theorem total_apply (e : FVec Ideal S8192x40 .f32) (acc1 acc2 : BitVec 32) (hr1 : S8192x40.Reduces [1] S8192)
    (hφ1 : FKind.Formats .f32) (hacc1 : acc1 = FKind.add.neutral .f32 hφ1) (hs1 : S8192.ShapeCasts S8192x1)
    (hr2 : S8192x1.Reduces [0] S1) (hφ2 : FKind.Formats .f32) (hacc2 : acc2 = FKind.add.neutral .f32 hφ2)
    (hs2 : S1.ShapeCasts S1x1) (u w : Fin 1) :
    shapeCast S1x1 (multiReduction .add [0] S1 (shapeCast S8192x1 (multiReduction .add [1] S8192 e acc1 hr1 hφ1 hacc1) hs1)
      acc2 hr2 hφ2 hacc2) hs2 (ix2 u w) = ∑ q : Fin 8192, ∑ c : Fin 40, e (ix2 q c) := by
  refine (shapeCast_a_1a_apply _ hs2 u w).trans ?_
  refine (red_rows _ acc2 hr2 hφ2 hacc2 w).trans ?_
  refine Finset.sum_congr rfl fun q _ => ?_
  refine (col_apply _ hs1 q 0).trans ?_
  exact red_classes e acc1 hr1 hφ1 hacc1 q

/-- The block of entry losses, as the body forms it. -/
def lossVec (x0 x1 : Vec Ideal S8192x40 .f32) : FVec Ideal S8192x40 .f32 :=
  addf (subf (maximumf x0 (k0_pay69 (F := Ideal))) (mulf x0 x1))
    (log1p (exp (subf (broadcast S8192x40 (Scalar.ofBits (F := Ideal) .f32 0x00000000#32)) (absf x0))))

/-- One entry of it is the specification's entry loss: `0 − |x|` is `−|x|`. -/
theorem lossVec_apply (x0 x1 : Vec Ideal S8192x40 .f32) (q : Fin 8192) (c : Fin 40) :
    lossVec x0 x1 (ix2 q c) = entryLoss (x0 (ix2 q c)) (x1 (ix2 q c)) := by
  unfold lossVec entryLoss
  show FloatOps.addf (F := Ideal) (φ := .f32) _ (FloatOps.log1p (F := Ideal) (φ := .f32) (FloatOps.exp (F := Ideal) (φ := .f32)
      (Ideal.ofBits .f32 0x00000000#32 - FloatOps.absf (F := Ideal) (φ := .f32) (x0 (ix2 q c))))) = _
  rw [ofBits_zero, zero_sub]
  rfl

/-- The stored cell, read at its one index: what was loaded plus the block's loss. -/
theorem pay1_apply (x0 x1 : Vec Ideal S8192x40 .f32) (v : Vec Ideal S1x1 .f32) (j : S1x1.Idx) :
    k0_pay1 (F := Ideal) x0 x1 (k0_pay69 (F := Ideal)) v j = v j + blockLoss x0 x1 := by
  obtain ⟨u, w, rfl⟩ : ∃ u w, j = ix2 u w := ⟨j 0, j 1, eq_ix2 j⟩
  have e0 := congrFun (shapeCast_self v shapeCasts_S1x1_S1x1) (ix2 u w)
  have e1 := total_apply (lossVec x0 x1) 0x00000000#32 0x00000000#32 reduces_S8192x40_S8192 (.inl rfl) rfl
    shapeCasts_S8192_S8192x1 reduces_S8192x1_S1 (.inl rfl) rfl shapeCasts_S1_S1x1 u w
  have e2 : (∑ q : Fin 8192, ∑ c : Fin 40, lossVec x0 x1 (ix2 q c)) = blockLoss x0 x1 :=
    Finset.sum_congr rfl fun q _ => Finset.sum_congr rfl fun c _ => lossVec_apply x0 x1 q c
  unfold k0_pay1
  exact congrArg₂ (· + ·) e0 (e1.trans e2)

/-- The zero cell the first point stores reads 0. -/
theorem pay3_apply (j : S1x1.Idx) : k0_pay3 (F := Ideal) j = 0 := ofBits_zero

end Loss

open Loss

/-- At the first point the body leaves the block's loss (added to the zero it has just stored). -/
theorem out_A_3 (c : Dev nD) (i : grid0.Coords) (a1 : Memref sig .tc .vmem S8192x40 .f32) (h1 : a1.IsWhole)
    (a2 : Memref sig .tc .vmem S8192x40 .f32) (h2 : a2.IsWhole) (a3 : Memref sig .tc .vmem S100x40 .f32) (h3 : a3.IsWhole)
    (a4 : Memref sig .tc .vmem S1x1 .f32) (h4 : a4.IsWhole) (hc : cond0_0 i) (x0 x1 : Vec Ideal S8192x40 .f32) :
    out0_A_3 (F := Ideal) c i a1 h1 a2 h2 a3 h3 a4 h4 hc x0 x1 = fun _ => blockLoss x0 x1 := by
  rw [piece_A_3 (F := Ideal) c i a1 h1 a2 h2 a3 h3 a4 h4 hc x0 x1]
  funext j
  rw [pay1_apply, pay3_apply, zero_add]

/-- At a later point the body leaves what the cell held plus the block's loss. -/
theorem out_B_3 (c : Dev nD) (i : grid0.Coords) (a1 : Memref sig .tc .vmem S8192x40 .f32) (h1 : a1.IsWhole)
    (a2 : Memref sig .tc .vmem S8192x40 .f32) (h2 : a2.IsWhole) (a3 : Memref sig .tc .vmem S100x40 .f32) (h3 : a3.IsWhole)
    (a4 : Memref sig .tc .vmem S1x1 .f32) (h4 : a4.IsWhole) (hc : ¬cond0_0 i) (x0 x1 : Vec Ideal S8192x40 .f32)
    (xo2 : Vec Ideal S100x40 .f32) (xo3 : Vec Ideal S1x1 .f32) :
    out0_B_3 (F := Ideal) c i a1 h1 a2 h2 a3 h3 a4 h4 hc x0 x1 xo2 xo3 = fun j => xo3 j + blockLoss x0 x1 := by
  rw [piece_B_3 (F := Ideal) c i a1 h1 a2 h2 a3 h3 a4 h4 hc x0 x1 xo2 xo3]
  funext j
  exact pay1_apply x0 x1 xo3 j

end Cert.KernelIdeal.GhmK0

end
-- ==== Proof.K0Value.lean ====
/-
  The histogram region as a whole: after its 256 grid points the counts array holds, at (b, c), the number of all
  2097152 samples of class `c` with bin `b`, and the loss cell the cross-entropy summed over every entry.
  Point `t` reads rows 8192·t … 8192·t + 8191 of the predictions and targets; what the two output buffers hold after point
  `n` is the sum of the first `n + 1` blocks' contributions (induction on the point), the one write-back after the last
  point puts that into the arrays, and 256 blocks of 8192 rows are all the rows.
-/
import proofs.«157406_j13846974562932_1_alg».proof.Proof.Gen.KernelIdeal.Frame
import proofs.«157406_j13846974562932_1_alg».proof.Proof.SpecLemmas
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«157406_j13846974562932_1_alg».proof.Proof.K0Counts
import proofs.«157406_j13846974562932_1_alg».proof.Proof.K0Loss

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.GhmK0

open Cert.KernelIdeal Cert.KernelIdeal.Gen Cert.Ghm

variable (V : (c : Dev nD) → (b : Ref sig .tc) → Buf (Elt Ideal) ((c : Thread nD τ).loc b))

/-- The predictions and the targets as the region finds them, at their literal shape. -/
abbrev parr (c : Dev nD) : Vec Ideal S2097152x40 .f32 := V c main_arg0
abbrev tarr (c : Dev nD) : Vec Ideal S2097152x40 .f32 := V c main_arg1

/-! ## The blocks the two input windows read -/

/-- Both input windows sit, at point `t`, on block row `t` and block column 0. -/
theorem index0_0 : ∀ t : Fin cfg0.N, win0_0.index t 0 = t.val ∧ win0_0.index t 1 = 0 :=
  (by decide +kernel : ∀ t : Fin grid0.N, win0_0.index t 0 = t.val ∧ win0_0.index t 1 = 0)
theorem index0_1 : ∀ t : Fin cfg0.N, win0_1.index t 0 = t.val ∧ win0_1.index t 1 = 0 :=
  (by decide +kernel : ∀ t : Fin grid0.N, win0_1.index t 0 = t.val ∧ win0_1.index t 1 = 0)

/-- Entry (q, cc) of the predictions' block at point `t` is entry (8192·t + q, cc) of the predictions. -/
theorem iblk0_0_apply (c : Dev nD) (t : Fin cfg0.N) (q : Fin 8192) (cc : Fin 40) (hr : 8192 * t.val + q.val < 2097152) :
    (iblk0 (F := Ideal) V c 0 t : Vec Ideal S8192x40 .f32) (ix2 q cc) = parr V c (ix2 ⟨8192 * t.val + q.val, hr⟩ cc) := by
  have hi := index0_0 t
  unfold iblk0
  rw [View.read_apply]
  show V c main_arg0 _ = V c main_arg0 _
  congr 1
  funext a
  apply Fin.ext
  match a with
  | ⟨0, _⟩ => show win0_0.index t 0 * 8192 + 1 * q.val = 8192 * t.val + q.val; rw [hi.1]; omega
  | ⟨1, _⟩ => show win0_0.index t 1 * 40 + 1 * cc.val = cc.val; rw [hi.2]; omega

/-- The same for the targets. -/
theorem iblk0_1_apply (c : Dev nD) (t : Fin cfg0.N) (q : Fin 8192) (cc : Fin 40) (hr : 8192 * t.val + q.val < 2097152) :
    (iblk0 (F := Ideal) V c 1 t : Vec Ideal S8192x40 .f32) (ix2 q cc) = tarr V c (ix2 ⟨8192 * t.val + q.val, hr⟩ cc) := by
  have hi := index0_1 t
  unfold iblk0
  rw [View.read_apply]
  show V c main_arg1 _ = V c main_arg1 _
  congr 1
  funext a
  apply Fin.ext
  match a with
  | ⟨0, _⟩ => show win0_1.index t 0 * 8192 + 1 * q.val = 8192 * t.val + q.val; rw [hi.1]; omega
  | ⟨1, _⟩ => show win0_1.index t 1 * 40 + 1 * cc.val = cc.val; rw [hi.2]; omega

/-! ## One block's contribution, row by row of the whole arrays -/

/-- Row `r`'s mark in bin `b` of class `cc`: 1 when the row's entry of that class has that bin (0 past the last row). -/
def rowMark (c : Dev nD) (b : Fin 100) (cc : Fin 40) (r : ℕ) : EReal :=
  if h : r < 2097152 then
    (if gradBin (parr V c (ix2 ⟨r, h⟩ cc)) (tarr V c (ix2 ⟨r, h⟩ cc)) = BitVec.ofNat 32 b.val then (1 : EReal) else 0)
  else 0

/-- Row `r`'s loss: its 40 entries' cross-entropies summed (0 past the last row). -/
def rowLoss (c : Dev nD) (r : ℕ) : EReal :=
  if h : r < 2097152 then ∑ cc : Fin 40, entryLoss (parr V c (ix2 ⟨r, h⟩ cc)) (tarr V c (ix2 ⟨r, h⟩ cc)) else 0

/-- The counts of the block at point `t` are the marks of rows 8192·t … 8192·t + 8191. -/
theorem binCounts_blk (c : Dev nD) (t : Fin cfg0.N) (b : Fin 100) (cc : Fin 40) :
    binCounts (iblk0 (F := Ideal) V c 0 t) (iblk0 (F := Ideal) V c 1 t) (ix2 b cc)
      = ∑ q : Fin 8192, rowMark V c b cc (8192 * t.val + q.val) := by
  have hN : t.val < 256 := lt_of_lt_of_eq t.isLt N_0
  unfold binCounts
  refine Finset.sum_congr rfl fun q _ => ?_
  have hr : 8192 * t.val + q.val < 2097152 := by have := q.isLt; omega
  show (if gradBin ((iblk0 (F := Ideal) V c 0 t : Vec Ideal S8192x40 .f32) (ix2 q cc))
      ((iblk0 (F := Ideal) V c 1 t : Vec Ideal S8192x40 .f32) (ix2 q cc)) = BitVec.ofNat 32 b.val then (1 : EReal) else 0) = _
  rw [iblk0_0_apply V c t q cc hr, iblk0_1_apply V c t q cc hr]
  unfold rowMark
  rw [dif_pos hr]

/-- The loss of the block at point `t` is the loss of rows 8192·t … 8192·t + 8191. -/
theorem blockLoss_blk (c : Dev nD) (t : Fin cfg0.N) :
    blockLoss (iblk0 (F := Ideal) V c 0 t) (iblk0 (F := Ideal) V c 1 t)
      = ∑ q : Fin 8192, rowLoss V c (8192 * t.val + q.val) := by
  have hN : t.val < 256 := lt_of_lt_of_eq t.isLt N_0
  unfold blockLoss
  refine Finset.sum_congr rfl fun q _ => ?_
  have hr : 8192 * t.val + q.val < 2097152 := by have := q.isLt; omega
  unfold rowLoss
  rw [dif_pos hr]
  refine Finset.sum_congr rfl fun cc _ => ?_
  show entryLoss ((iblk0 (F := Ideal) V c 0 t : Vec Ideal S8192x40 .f32) (ix2 q cc))
      ((iblk0 (F := Ideal) V c 1 t : Vec Ideal S8192x40 .f32) (ix2 q cc)) = _
  rw [iblk0_0_apply V c t q cc hr, iblk0_1_apply V c t q cc hr]

/-! ## What the two output buffers hold after each point -/

/-- At the first point the counts buffer holds the first block's marks, -/
theorem counts_first (c : Dev nD) (t : Fin cfg0.N) (h0 : t.val % 256 = 0) (b : Fin 100) (cc : Fin 40) :
    (outsAt0 (F := Ideal) V c t.val t.isLt).1 (ix2 b cc) = ∑ q : Fin 8192, rowMark V c b cc (8192 * t.val + q.val) := by
  rw [outsAt0_A V c t h0]
  dsimp only
  refine (congrFun (out_A_2 c (grid0.coords t) (ms0_0 t) (hs0_0 t) (ms0_1 t) (hs0_1 t) (ms0_2 t) (hs0_2 t) (ms0_3 t) (hs0_3 t)
    ((hcond0_0 t).mpr h0) (iblk0 (F := Ideal) V c 0 t) (iblk0 (F := Ideal) V c 1 t)) (ix2 b cc)).trans ?_
  exact binCounts_blk V c t b cc

/-- and the loss cell the first block's loss. -/
theorem loss_first (c : Dev nD) (t : Fin cfg0.N) (h0 : t.val % 256 = 0) (j : S1x1.Idx) :
    (outsAt0 (F := Ideal) V c t.val t.isLt).2 j = ∑ q : Fin 8192, rowLoss V c (8192 * t.val + q.val) := by
  rw [outsAt0_A V c t h0]
  dsimp only
  refine (congrFun (out_A_3 c (grid0.coords t) (ms0_0 t) (hs0_0 t) (ms0_1 t) (hs0_1 t) (ms0_2 t) (hs0_2 t) (ms0_3 t) (hs0_3 t)
    ((hcond0_0 t).mpr h0) (iblk0 (F := Ideal) V c 0 t) (iblk0 (F := Ideal) V c 1 t)) j).trans ?_
  exact blockLoss_blk V c t

/-- At a later point the counts buffer holds what the point before left plus this block's marks, -/
theorem counts_later (c : Dev nD) (t : Fin cfg0.N) (h0 : ¬t.val % 256 = 0) (b : Fin 100) (cc : Fin 40) :
    (outsAt0 (F := Ideal) V c t.val t.isLt).1 (ix2 b cc)
      = (outsAt0 (F := Ideal) V c (t.val - 1) (Nat.lt_of_le_of_lt (Nat.sub_le _ _) t.isLt)).1 (ix2 b cc)
        + ∑ q : Fin 8192, rowMark V c b cc (8192 * t.val + q.val) := by
  rw [outsAt0_B V c t h0]
  dsimp only
  refine (congrFun (out_B_2 c (grid0.coords t) (ms0_0 t) (hs0_0 t) (ms0_1 t) (hs0_1 t) (ms0_2 t) (hs0_2 t) (ms0_3 t) (hs0_3 t)
    (fun h => h0 ((hcond0_0 t).mp h)) (iblk0 (F := Ideal) V c 0 t) (iblk0 (F := Ideal) V c 1 t)
    (outsAt0 (F := Ideal) V c (t.val - 1) (Nat.lt_of_le_of_lt (Nat.sub_le _ _) t.isLt)).1
    (outsAt0 (F := Ideal) V c (t.val - 1) (Nat.lt_of_le_of_lt (Nat.sub_le _ _) t.isLt)).2) (ix2 b cc)).trans ?_
  exact congrArg (fun z => (outsAt0 (F := Ideal) V c (t.val - 1) (Nat.lt_of_le_of_lt (Nat.sub_le _ _) t.isLt)).1 (ix2 b cc) + z)
    (binCounts_blk V c t b cc)

/-- and the loss cell what the point before left plus this block's loss. -/
theorem loss_later (c : Dev nD) (t : Fin cfg0.N) (h0 : ¬t.val % 256 = 0) (j : S1x1.Idx) :
    (outsAt0 (F := Ideal) V c t.val t.isLt).2 j
      = (outsAt0 (F := Ideal) V c (t.val - 1) (Nat.lt_of_le_of_lt (Nat.sub_le _ _) t.isLt)).2 j
        + ∑ q : Fin 8192, rowLoss V c (8192 * t.val + q.val) := by
  rw [outsAt0_B V c t h0]
  dsimp only
  refine (congrFun (out_B_3 c (grid0.coords t) (ms0_0 t) (hs0_0 t) (ms0_1 t) (hs0_1 t) (ms0_2 t) (hs0_2 t) (ms0_3 t) (hs0_3 t)
    (fun h => h0 ((hcond0_0 t).mp h)) (iblk0 (F := Ideal) V c 0 t) (iblk0 (F := Ideal) V c 1 t)
    (outsAt0 (F := Ideal) V c (t.val - 1) (Nat.lt_of_le_of_lt (Nat.sub_le _ _) t.isLt)).1
    (outsAt0 (F := Ideal) V c (t.val - 1) (Nat.lt_of_le_of_lt (Nat.sub_le _ _) t.isLt)).2) j).trans ?_
  exact congrArg (fun z => (outsAt0 (F := Ideal) V c (t.val - 1) (Nat.lt_of_le_of_lt (Nat.sub_le _ _) t.isLt)).2 j + z)
    (blockLoss_blk V c t)

/-- After point `n` the two buffers hold the marks, and the losses, of the first `n + 1` blocks: by induction on the point. -/
theorem outsAt_eq (c : Dev nD) : ∀ (n : ℕ) (h : n < cfg0.N),
    (∀ (b : Fin 100) (cc : Fin 40), (outsAt0 (F := Ideal) V c n h).1 (ix2 b cc)
        = ∑ t ∈ Finset.range (n + 1), ∑ q : Fin 8192, rowMark V c b cc (8192 * t + q.val))
    ∧ (∀ j : S1x1.Idx, (outsAt0 (F := Ideal) V c n h).2 j
        = ∑ t ∈ Finset.range (n + 1), ∑ q : Fin 8192, rowLoss V c (8192 * t + q.val))
  | 0, h =>
    ⟨fun b cc => by
      rw [Finset.sum_range_succ, Finset.sum_range_zero, zero_add]
      exact counts_first V c ⟨0, h⟩ rfl b cc,
    fun j => by
      rw [Finset.sum_range_succ, Finset.sum_range_zero, zero_add]
      exact loss_first V c ⟨0, h⟩ rfl j⟩
  | n + 1, h => by
    have h' : n + 1 < 256 := lt_of_lt_of_eq h N_0
    have hB : ¬(⟨n + 1, h⟩ : Fin cfg0.N).val % 256 = 0 := by dsimp only; omega
    obtain ⟨ih1, ih2⟩ := outsAt_eq c n (Nat.lt_of_succ_lt h)
    refine ⟨fun b cc => ?_, fun j => ?_⟩
    · rw [Finset.sum_range_succ, ← ih1 b cc]
      exact counts_later V c ⟨n + 1, h⟩ hB b cc
    · rw [Finset.sum_range_succ, ← ih2 j]
      exact loss_later V c ⟨n + 1, h⟩ hB j

/-! ## The one write-back and the final arrays -/

/-- The counts as an array over (bin, class), and the summed loss as the one-cell array. -/
abbrev cntArr (c : Dev nD) : Vec Ideal S100x40 .f32 := fun j => cnt (parr V c) (tarr V c) (j 1) (j 0)
abbrev lossCell (c : Dev nD) : Vec Ideal S1x1 .f32 := fun _ => lossSum (parr V c) (tarr V c)

/-- After the last point the counts buffer holds every count: 256 blocks of 8192 rows are all the rows. -/
theorem counts_last (c : Dev nD) (t : Fin cfg0.N) (h255 : t.val = 255) :
    (outsAt0 (F := Ideal) V c t.val t.isLt).1 = cntArr V c := by
  funext j
  obtain ⟨b, cc, rfl⟩ : ∃ b cc, j = ix2 b cc := ⟨j 0, j 1, eq_ix2 j⟩
  rw [(outsAt_eq V c t.val t.isLt).1 b cc, h255]
  show ∑ t ∈ Finset.range 256, ∑ q : Fin 8192, rowMark V c b cc (8192 * t + q.val) = cnt (parr V c) (tarr V c) cc b
  rw [sum_range_blocks (rowMark V c b cc)]
  unfold cnt
  refine Finset.sum_congr rfl fun r _ => ?_
  unfold rowMark
  exact (dif_pos r.isLt).trans rfl

/-- After the last point the loss cell holds the loss of all rows. -/
theorem loss_last (c : Dev nD) (t : Fin cfg0.N) (h255 : t.val = 255) :
    (outsAt0 (F := Ideal) V c t.val t.isLt).2 = lossCell V c := by
  funext j
  rw [(outsAt_eq V c t.val t.isLt).2 j, h255]
  show ∑ t ∈ Finset.range 256, ∑ q : Fin 8192, rowLoss V c (8192 * t + q.val) = lossSum (parr V c) (tarr V c)
  rw [sum_range_blocks (rowLoss V c)]
  unfold lossSum
  refine Finset.sum_congr rfl fun r _ => ?_
  unfold rowLoss
  exact (dif_pos r.isLt).trans rfl

/-- The last point of the grid. -/
abbrev tlast : Fin cfg0.N := ⟨255, lt_of_lt_of_eq (by decide) N_0.symm⟩

/-- The two output windows sit on block (0, 0) at every point: each array is one block. -/
theorem index0_2 : ∀ t : Fin cfg0.N, win0_2.index t 0 = 0 ∧ win0_2.index t 1 = 0 :=
  (by decide +kernel : ∀ t : Fin grid0.N, win0_2.index t 0 = 0 ∧ win0_2.index t 1 = 0)
theorem index0_3 : ∀ t : Fin cfg0.N, win0_3.index t 0 = 0 ∧ win0_3.index t 1 = 0 :=
  (by decide +kernel : ∀ t : Fin grid0.N, win0_3.index t 0 = 0 ∧ win0_3.index t 1 = 0)

/-- The one write-back of the counts, after the last point, writes every count: the block read through zero offsets is the array. -/
theorem flushed2_eq (c : Dev nD) (t : Fin cfg0.N) (hf : (cfg0.win 2).flush t = true) :
    (dat0 (F := Ideal) V c).flushed 2 t = ((cfg0.win 2).blk t).view.read (Elt Ideal) (cntArr V c) := by
  have hN : cfg0.N = 256 := N_0
  have h255 : t.val = 255 := by have := (flush0_2 t).mp hf; have := t.isLt; omega
  have hi := index0_2 t
  show (cfg0.win 2).cut (grid0.coords t) ((dat0 (F := Ideal) V c).after 2 t) = _
  rw [after0_2, counts_last V c t h255]
  have hz' : (fun a => win0_2.index t a * main_v0_0.ty.shape.size a) = fun _ => 0 :=
    funext fun a => match a with
      | ⟨0, _⟩ => by show win0_2.index t 0 * _ = 0; rw [hi.1]; exact Nat.zero_mul _
      | ⟨1, _⟩ => by show win0_2.index t 1 * _ = 0; rw [hi.2]; exact Nat.zero_mul _
  exact (Memref.read_access_unit_zero (Elt Ideal) main_v0_0 hz' (fun a => by rw [congrFun hz' a]; simp) (cntArr V c)).symm

/-- The one write-back of the loss cell, after the last point, writes the whole loss. -/
theorem flushed3_eq (c : Dev nD) (t : Fin cfg0.N) (hf : (cfg0.win 3).flush t = true) :
    (dat0 (F := Ideal) V c).flushed 3 t = ((cfg0.win 3).blk t).view.read (Elt Ideal) (lossCell V c) := by
  have hN : cfg0.N = 256 := N_0
  have h255 : t.val = 255 := by have := (flush0_3 t).mp hf; have := t.isLt; omega
  have hi := index0_3 t
  show (cfg0.win 3).cut (grid0.coords t) ((dat0 (F := Ideal) V c).after 3 t) = _
  rw [after0_3, loss_last V c t h255]
  have hz' : (fun a => win0_3.index t a * main_v0_1.ty.shape.size a) = fun _ => 0 :=
    funext fun a => match a with
      | ⟨0, _⟩ => by show win0_3.index t 0 * _ = 0; rw [hi.1]; exact Nat.zero_mul _
      | ⟨1, _⟩ => by show win0_3.index t 1 * _ = 0; rw [hi.2]; exact Nat.zero_mul _
  exact (Memref.read_access_unit_zero (Elt Ideal) main_v0_1 hz' (fun a => by rw [congrFun hz' a]; simp) (lossCell V c)).symm

/-- After the region the counts array holds every class's and bin's count over all samples. -/
theorem counts_final (c : Dev nD) :
    (dat0 (F := Ideal) V c).arrAt 2 cfg0.N
      = fun j : SAt.Idx => cnt (V c main_arg0) (V c main_arg1) (j 1) (j 0) :=
  (dat0 (F := Ideal) V c).arrAt_eq_of_cover 2 (cntArr V c) (flushed2_eq V c) fun i =>
    ⟨tlast, (flush0_2 tlast).mpr rfl, by
      show i ∈ ((View.whole main_v0_0).slice (win0_2.rect tlast)).set
      rw [View.set_slice_whole, Rect.mem_set_unit]
      intro a
      have h0 : (i 0 : Nat) < 100 := (i 0).isLt
      have h1 : (i 1 : Nat) < 40 := (i 1).isLt
      match a with
      | ⟨0, _⟩ => show win0_2.index tlast 0 * win0_2.size 0 ≤ (i 0 : Nat) ∧ (i 0 : Nat) < win0_2.index tlast 0 * win0_2.size 0 + win0_2.xsize (grid0.coords tlast) 0
                  rw [show win0_2.index tlast 0 * win0_2.size 0 = 0 from by decide +kernel, show win0_2.xsize (grid0.coords tlast) 0 = 100 from by decide +kernel]; omega
      | ⟨1, _⟩ => show win0_2.index tlast 1 * win0_2.size 1 ≤ (i 1 : Nat) ∧ (i 1 : Nat) < win0_2.index tlast 1 * win0_2.size 1 + win0_2.xsize (grid0.coords tlast) 1
                  rw [show win0_2.index tlast 1 * win0_2.size 1 = 0 from by decide +kernel, show win0_2.xsize (grid0.coords tlast) 1 = 40 from by decide +kernel]; omega⟩

/-- After the region the loss cell holds the loss summed over all entries. -/
theorem loss_final (c : Dev nD) :
    (dat0 (F := Ideal) V c).arrAt 3 cfg0.N
      = fun _ : S1x1.Idx => lossSum (V c main_arg0) (V c main_arg1) :=
  (dat0 (F := Ideal) V c).arrAt_eq_of_cover 3 (lossCell V c) (flushed3_eq V c) fun i =>
    ⟨tlast, (flush0_3 tlast).mpr rfl, by
      show i ∈ ((View.whole main_v0_1).slice (win0_3.rect tlast)).set
      rw [View.set_slice_whole, Rect.mem_set_unit]
      intro a
      have h0 : (i 0 : Nat) < 1 := (i 0).isLt
      have h1 : (i 1 : Nat) < 1 := (i 1).isLt
      match a with
      | ⟨0, _⟩ => show win0_3.index tlast 0 * win0_3.size 0 ≤ (i 0 : Nat) ∧ (i 0 : Nat) < win0_3.index tlast 0 * win0_3.size 0 + win0_3.xsize (grid0.coords tlast) 0
                  rw [show win0_3.index tlast 0 * win0_3.size 0 = 0 from by decide +kernel, show win0_3.xsize (grid0.coords tlast) 0 = 1 from by decide +kernel]; omega
      | ⟨1, _⟩ => show win0_3.index tlast 1 * win0_3.size 1 ≤ (i 1 : Nat) ∧ (i 1 : Nat) < win0_3.index tlast 1 * win0_3.size 1 + win0_3.xsize (grid0.coords tlast) 1
                  rw [show win0_3.index tlast 1 * win0_3.size 1 = 0 from by decide +kernel, show win0_3.xsize (grid0.coords tlast) 1 = 1 from by decide +kernel]; omega⟩

end Cert.KernelIdeal.GhmK0

end
-- ==== Proof.K1Value.lean ====
/-
  The weights region: block `t` of the weights array (rows 16384·t … 16384·t + 16383) is written once, by point `t`, and holds
  at (r, c) the batch size over the updated histogram's row `bin(r, c)`, column `c`. The body forms that row-select as the
  sum over the hundred bins of the mask "this entry's bin is b" times row b of the histogram block; exactly one mask is 1.
-/
import proofs.«157406_j13846974562932_1_alg».proof.Proof.Gen.KernelIdeal.Frame
import proofs.«157406_j13846974562932_1_alg».proof.Proof.SpecLemmas
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.GhmK1

open Cert.KernelIdeal Cert.KernelIdeal.Gen Cert.Ghm

/-! ## The hundred-fold row select as a recursion

The body adds, bin after bin, the mask "this entry's bin is b" (as the float 0 or 1) times row `b` of the histogram
block spread over all rows. `partialSum n` is that sum over the bins below `n`, in the body's own operations; the body's
total is `partialSum 100`, and at an entry whose bin is `k` the partial sum is row `k` once `n` has passed `k`, zero before. -/

theorem hz : (![0, 0] : Fin 2 → Nat) = fun _ => 0 := funext fun a => by fin_cases a <;> rfl

/-- Row `b` of the [100, 40] block is a [1, 40] slice of it. -/
theorem slices_row (b : Nat) (hb : b < 100) : S100x40.Slices ![b, 0] S1x40 :=
  ⟨rfl, fun a => by
    fin_cases a
    · show b + 1 ≤ 100; omega
    · show 0 + 40 ≤ 40; omega⟩

/-- The mask of bin `b`: 1 where the entry's bin is `b`, else 0. -/
def maskV (bins : IVec S16384x40 32) (b : Nat) : FVec Ideal S16384x40 .f32 :=
  sitofp .f32 (extui 32 (cmpi .eq bins (broadcast S16384x40 (BitVec.ofNat 32 b))) Gen.natLt_1_32)

/-- Row `b` of the histogram block, repeated on every row of the entries' block. -/
def rowV (acc : FVec Ideal S100x40 .f32) (b : Nat) (hb : b < 100) : FVec Ideal S16384x40 .f32 :=
  broadcastTo S16384x40 (shapeCast S1x40 (shapeCast S40 (extractStridedSlice S1x40 ![b, 0] acc (slices_row b hb))
    Gen.shapeCasts_S1x40_S40) Gen.shapeCasts_S40_S1x40) Gen.broadcasts_S1x40_S16384x40

/-- The sum of mask times row over the bins below `n`, from zero. -/
def partialSum (bins : IVec S16384x40 32) (acc : FVec Ideal S100x40 .f32) : (n : Nat) → n ≤ 100 → FVec Ideal S16384x40 .f32
  | 0, _ => broadcast S16384x40 (Scalar.ofBits .f32 0x00000000#32)
  | n + 1, h => addf (partialSum bins acc n (Nat.le_of_succ_le h)) (mulf (maskV bins n) (rowV acc n h))

/-- The stored value is the batch size over the full sum: the body's operations, bin by bin, are the recursion's. -/
theorem pay_all (x0 x1 : Vec Ideal S16384x40 .f32) (x2 : Vec Ideal S100x40 .f32) :
    k1_pay1 (k1_pay42 (k1_pay2 x0 x1) (k1_pay3 x2) (k1_pay39 (k1_pay2 x0 x1) (k1_pay3 x2) (k1_pay37 (k1_pay2 x0 x1) (k1_pay3 x2) (k1_pay35 (k1_pay2 x0 x1) (k1_pay3 x2) (k1_pay33 (k1_pay2 x0 x1) (k1_pay3 x2) (k1_pay32 (k1_pay2 x0 x1) (k1_pay3 x2) (k1_pay29 (k1_pay2 x0 x1) (k1_pay3 x2) (k1_pay28 (k1_pay2 x0 x1) (k1_pay3 x2) (k1_pay25 (k1_pay2 x0 x1) (k1_pay3 x2) (k1_pay23 (k1_pay2 x0 x1) (k1_pay3 x2) (k1_pay20 (k1_pay2 x0 x1) (k1_pay3 x2) (k1_pay18 (k1_pay2 x0 x1) (k1_pay3 x2) (k1_pay15 (k1_pay2 x0 x1) (k1_pay3 x2) (k1_pay13 (k1_pay2 x0 x1) (k1_pay3 x2) (k1_pay11 (k1_pay2 x0 x1) (k1_pay3 x2) (k1_pay9 (k1_pay2 x0 x1) (k1_pay3 x2) (k1_pay8 (k1_pay2 x0 x1) (k1_pay3 x2) (k1_pay5 (k1_pay2 x0 x1) (k1_pay3 x2) (k1_pay4 x0 x1 x2) 3#32) (k1_pay6 (F := Ideal) (k1_pay2 x0 x1)) (k1_pay7 (k1_pay3 x2)))) (k1_pay10 (F := Ideal) (k1_pay2 x0 x1))) (k1_pay12 (k1_pay2 x0 x1) (k1_pay3 x2))) (k1_pay14 (k1_pay2 x0 x1))) (k1_pay16 (F := Ideal) (k1_pay2 x0 x1)) (k1_pay17 (k1_pay3 x2))) (k1_pay19 (k1_pay2 x0 x1))) (k1_pay21 (F := Ideal) (k1_pay2 x0 x1)) (k1_pay22 (k1_pay3 x2))) k1_pay24) (k1_pay26 (F := Ideal) (k1_pay2 x0 x1)) (k1_pay27 (k1_pay3 x2))) 63#32) (k1_pay30 (F := Ideal) (k1_pay2 x0 x1)) (k1_pay31 (k1_pay3 x2)))) (k1_pay34 (F := Ideal) (k1_pay2 x0 x1))) (k1_pay36 (k1_pay2 x0 x1) (k1_pay3 x2))) (k1_pay38 (k1_pay2 x0 x1))) (k1_pay40 (F := Ideal) (k1_pay2 x0 x1)) (k1_pay41 (k1_pay3 x2))) (k1_pay43 (F := Ideal) (k1_pay2 x0 x1)) (k1_pay44 (k1_pay3 x2))
      = divf (broadcast S16384x40 (Scalar.ofBits (F := Ideal) .f32 0x4A000000#32))
          (partialSum (k1_pay2 x0 x1) (k1_pay3 x2) 100 (Nat.le_refl _)) := rfl

theorem maskV_apply (bins : IVec S16384x40 32) (b : Nat) (i : S16384x40.Idx) :
    maskV bins b i = ind (IntOp.cmpi .eq (bins i) (BitVec.ofNat 32 b)) := rfl

/-- The repeated row read at (p, c) is the histogram block at (b, c). -/
theorem rowV_apply (acc : FVec Ideal S100x40 .f32) (b : Nat) (hb : b < 100) (p : Fin 16384) (c : Fin 40) :
    rowV acc b hb (ix2 p c) = acc (ix2 ⟨b, hb⟩ c) := by
  unfold rowV
  rw [broadcastTo_1b_ab_apply, shapeCast_a_1a_apply, shapeCast_1a_a_apply,
    slice2_axis0_apply b acc (slices_row b hb) (0 : Fin 1) c ⟨b, hb⟩ (by simp)]

theorem partialSum_succ (bins : IVec S16384x40 32) (acc : FVec Ideal S100x40 .f32) (n : Nat) (h : n + 1 ≤ 100) (i : S16384x40.Idx) :
    partialSum bins acc (n + 1) h i = partialSum bins acc n (Nat.le_of_succ_le h) i + maskV bins n i * rowV acc n h i := rfl

/-- At an entry whose bin is `k`, the sum over the bins below `n` is row `k` of the histogram block if `k < n`, else zero:
    every mask but the `k`-th is 0 and that one is 1. -/
theorem partialSum_apply (bins : IVec S16384x40 32) (acc : FVec Ideal S100x40 .f32) (p : Fin 16384) (c : Fin 40)
    (k : Fin 100) (hk : bins (ix2 p c) = BitVec.ofNat 32 k.val) :
    ∀ (n : Nat) (hn : n ≤ 100), partialSum bins acc n hn (ix2 p c) = if k.val < n then acc (ix2 k c) else 0 := by
  intro n
  induction n with
  | zero =>
    intro hn
    show Ideal.ofBits .f32 0x00000000#32 = _
    rw [ofBits_zero, if_neg (Nat.not_lt_zero _)]
  | succ n ih =>
    intro hn
    rw [partialSum_succ, ih, maskV_apply, rowV_apply, hk, ind_cmpi_eq]
    have hnk : (BitVec.ofNat 32 k.val = BitVec.ofNat 32 n) ↔ k = ⟨n, hn⟩ := ofNat_eq_iff k ⟨n, hn⟩
    by_cases h1 : k.val < n
    · have h2 : ¬ (k = ⟨n, hn⟩) := fun h => by rw [h] at h1; exact Nat.lt_irrefl _ h1
      rw [if_pos h1, if_neg (fun h => h2 (hnk.1 h)), if_pos (Nat.lt_succ_of_lt h1), zero_mul, add_zero]
    · by_cases h3 : k = ⟨n, hn⟩
      · subst h3
        rw [if_neg h1, if_pos rfl, if_pos (Nat.lt_succ_self _), zero_add, one_mul]
      · have h4 : ¬ k.val < n + 1 := fun h => h3 (Fin.ext (show k.val = n by omega))
        rw [if_neg h1, if_neg (fun h => h3 (hnk.1 h)), if_neg h4, zero_mul, add_zero]

/-- What the body stores from one block of predictions `x0`, targets `x1` and the [100, 40] histogram `x2`. -/
theorem out1_3_eq (x0 x1 : Vec Ideal S16384x40 .f32) (x2 : Vec Ideal S100x40 .f32) :
    out1_3 (F := Ideal) x0 x1 x2
      = fun i => Ideal.div (Ideal.ofBits .f32 0x4A000000#32) (x2 (ix2 (binFin (x0 i) (x1 i)) (i 1))) := by
  unfold out1_3
  rw [View.canon_unit_zero hz]
  simp only [View.ld_unit_zero (S := S16384x40) hz, View.ld_unit_zero (S := S100x40) hz]
  rw [pay_all]
  funext i
  obtain ⟨p, c, rfl⟩ : ∃ p c, i = ix2 p c := ⟨i 0, i 1, eq_ix2 i⟩
  show Ideal.div (Ideal.ofBits .f32 0x4A000000#32) (partialSum (k1_pay2 x0 x1) (k1_pay3 x2) 100 (Nat.le_refl _) (ix2 p c))
    = Ideal.div (Ideal.ofBits .f32 0x4A000000#32) (x2 (ix2 (binFin (x0 (ix2 p c)) (x1 (ix2 p c))) c))
  have hk : k1_pay2 x0 x1 (ix2 p c) = BitVec.ofNat 32 (binFin (x0 (ix2 p c)) (x1 (ix2 p c))).val :=
    (show k1_pay2 x0 x1 (ix2 p c) = gradBin (x0 (ix2 p c)) (x1 (ix2 p c)) from rfl).trans (gradBin_eq _ _)
  rw [partialSum_apply (k1_pay2 x0 x1) (k1_pay3 x2) p c _ hk 100 (Nat.le_refl _), if_pos (Fin.isLt _)]
  show Ideal.div _ (shapeCast S100x40 x2 Gen.shapeCasts_S100x40_S100x40 _) = _
  rw [shapeCast_self]

end Cert.KernelIdeal.GhmK1

end
-- ==== Proof.K1Array.lean ====
/-
  The weights region, from blocks to the array: point t writes rows 16384·t … 16384·t + 16383 of the weights; the predictions'
  and targets' blocks are the same rows, and the histogram's block is the whole histogram at every point. The 128 blocks
  cover the array, so it ends holding, entry by entry, the batch size over the histogram at the entry's bin and class.
-/
import proofs.«157406_j13846974562932_1_alg».proof.Proof.Gen.KernelIdeal.Frame
import proofs.«157406_j13846974562932_1_alg».proof.Proof.K1Value
import proofs.«157406_j13846974562932_1_alg».proof.Proof.SpecLemmas
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.GhmK1

open Cert.KernelIdeal Cert.KernelIdeal.Gen Cert.Ghm

/-! ## From blocks to the array

Point `t` writes rows 16384·t … 16384·t + 16383 of the weights; the predictions' and targets' blocks are the same rows,
and the histogram's block is the whole histogram at every point. The 128 blocks cover the array. -/

/-- The windows' block indices at point `t`: the three long arrays move by one block of rows per point, the histogram
    stays. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The weights as one function of the arrays the region finds. -/
def weightsOf (c : Dev nD) : S2097152x40.Idx → EReal := fun i => Ideal.div (Ideal.ofBits .f32 0x4A000000#32)
  ((V c main_v9 : S100x40.Idx → EReal) (ix2 (binFin ((V c main_arg0 : S2097152x40.Idx → EReal) i) ((V c main_arg1 : S2097152x40.Idx → EReal) i)) (i 1)))

/-- What point `t` writes back is block `t` of that function. -/
theorem flushed1_eq (c : Dev nD) (t : Fin cfg1.N) :
    (dat1 (F := Ideal) V c).flushed 3 t = ((cfg1.win 3).blk t).view.read (Elt Ideal) (weightsOf V c) := by
  show (cfg1.win 3).cut (grid1.coords t) ((dat1 V c).after 3 t) = _
  rw [after1_3, out1_3_eq]
  obtain ⟨e0, e1, e2, e3, e4, e5, e6, e7⟩ := idx_facts1 t
  funext j
  show Ideal.div _ (V c main_v9 (((cfg1.win 2).blk t).view.emb (ix2 (binFin (V c main_arg0 (((cfg1.win 0).blk t).view.emb j)) (V c main_arg1 (((cfg1.win 1).blk t).view.emb j))) (j 1))))
     = Ideal.div _ (V c main_v9 (ix2 (binFin (V c main_arg0 (((cfg1.win 3).blk t).view.emb j)) (V c main_arg1 (((cfg1.win 3).blk t).view.emb j))) ((((cfg1.win 3).blk t).view.emb j) 1)))
  have h0 : ((cfg1.win 0).blk t).view.emb j = ((cfg1.win 3).blk t).view.emb j := by
    funext a; apply Fin.ext
    match a with
    | ⟨0, _⟩ => show win1_0.index t (0 : Fin 2) * 16384 + 1 * (j 0).val = win1_3.index t (0 : Fin 2) * 16384 + 1 * (j 0).val; rw [e0, e6]
    | ⟨1, _⟩ => show win1_0.index t (1 : Fin 2) * 40 + 1 * (j 1).val = win1_3.index t (1 : Fin 2) * 40 + 1 * (j 1).val; rw [e1, e7]
  have h1 : ((cfg1.win 1).blk t).view.emb j = ((cfg1.win 3).blk t).view.emb j := by
    funext a; apply Fin.ext
    match a with
    | ⟨0, _⟩ => show win1_1.index t (0 : Fin 2) * 16384 + 1 * (j 0).val = win1_3.index t (0 : Fin 2) * 16384 + 1 * (j 0).val; rw [e2, e6]
    | ⟨1, _⟩ => show win1_1.index t (1 : Fin 2) * 40 + 1 * (j 1).val = win1_3.index t (1 : Fin 2) * 40 + 1 * (j 1).val; rw [e3, e7]
  have h3 : (((cfg1.win 3).blk t).view.emb j) 1 = j 1 := by
    apply Fin.ext
    show win1_3.index t (1 : Fin 2) * 40 + 1 * (j 1).val = (j 1).val
    rw [e7]; omega
  have h2 : ∀ y : S100x40.Idx, ((cfg1.win 2).blk t).view.emb y = y := by
    intro y; funext a; apply Fin.ext
    match a with
    | ⟨0, _⟩ => show win1_2.index t (0 : Fin 2) * 100 + 1 * (y 0).val = (y 0).val; rw [e4]; omega
    | ⟨1, _⟩ => show win1_2.index t (1 : Fin 2) * 40 + 1 * (y 1).val = (y 1).val; rw [e5]; omega
  rw [h0, h1, h2, h3]

/-- An index of the weights array is in point `t`'s block iff each coordinate is in the block's range on its axis. -/
theorem mem_blk1 (t : Fin cfg1.N) (i : S2097152x40.Idx) :
    i ∈ ((cfg1.win 3).blk t).view.set ↔ ∀ a : Fin 2, win1_3.index t a * S16384x40.size a ≤ (i a).val ∧ (i a).val < win1_3.index t a * S16384x40.size a + S16384x40.size a := by
  show i ∈ ((View.whole main_v12).slice (win1_3.rect t)).set ↔ _
  rw [View.set_slice_whole, Rect.mem_set_unit]
  exact Iff.rfl

/-- Every index is in the block of the point its row falls in: row `r` in block `r / 16384`. -/
theorem cover1 (i : S2097152x40.Idx) : ∃ t : Fin cfg1.N, (cfg1.win 3).flush t = true ∧ i ∈ ((cfg1.win 3).blk t).view.set := by
  have hi0 : (i 0).val < 2097152 := (i 0).isLt
  have hi1 : (i 1).val < 40 := (i 1).isLt
  have hN : cfg1.N = 128 := N_1
  have ht : (i 0).val / 16384 < cfg1.N := by rw [hN]; omega
  refine ⟨⟨(i 0).val / 16384, ht⟩, flush1_3 _, ?_⟩
  rw [mem_blk1]
  obtain ⟨-, -, -, -, -, -, e6, e7⟩ := idx_facts1 ⟨(i 0).val / 16384, ht⟩
  intro a
  match a with
  | ⟨0, _⟩ =>
    show win1_3.index ⟨(i 0).val / 16384, ht⟩ (0 : Fin 2) * 16384 ≤ (i 0).val ∧ (i 0).val < win1_3.index ⟨(i 0).val / 16384, ht⟩ (0 : Fin 2) * 16384 + 16384
    rw [e6]; show (i 0).val / 16384 * 16384 ≤ (i 0).val ∧ (i 0).val < (i 0).val / 16384 * 16384 + 16384; omega
  | ⟨1, _⟩ =>
    show win1_3.index ⟨(i 0).val / 16384, ht⟩ (1 : Fin 2) * 40 ≤ (i 1).val ∧ (i 1).val < win1_3.index ⟨(i 0).val / 16384, ht⟩ (1 : Fin 2) * 40 + 40
    rw [e7]; omega

/-- After the region the weights array holds, entry by entry, the batch size over the histogram `V c main_v9` (bin by
    class) at the entry's bin and class. -/
theorem weights_array (c : Dev nD) :
    (dat1 (F := Ideal) V c).arrAt 3 cfg1.N
      = fun i : SP.Idx => Ideal.div (Ideal.ofBits .f32 0x4A000000#32)
          ((V c main_v9 : SAt.Idx → EReal) (ix2 (binFin (V c main_arg0 i) (V c main_arg1 i)) (i 1))) :=
  (dat1 V c).arrAt_eq_of_cover 3 (weightsOf V c) (fun t _ => flushed1_eq V c t) cover1

end Cert.KernelIdeal.GhmK1

end
-- ==== Proof.HostGlue.lean ====
/-
  The host operations around the two regions, read at the boundaries of @main's run.
  Between the regions the host transposes the running histogram `A` to bin-by-class, and forms the updated histogram
  `where(count > 0, 0.6·Aᵀ + 0.4·count, Aᵀ)` from the counts the first region left; it divides the loss cell by the number of
  entries; after the second region it transposes the updated histogram back to class-by-bin. So the three results at the
  last boundary are the specification's loss, weights and updated histogram of the launch contents of the arguments.
-/
import proofs.«157406_j13846974562932_1_alg».proof.Proof.Gen.KernelIdeal.Frame
import proofs.«157406_j13846974562932_1_alg».proof.Proof.SpecLemmas
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«157406_j13846974562932_1_alg».proof.Proof.K0Value
import proofs.«157406_j13846974562932_1_alg».proof.Proof.K1Array
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.GhmGlue

open Cert.KernelIdeal Cert.KernelIdeal.Gen Cert.Ghm

variable (m : (ℓ : Loc nD τ sig) → Buf (Elt Ideal) ℓ) (ρ : Dev nD → PrngReg)

/-- The arguments' launch contents, named. -/
abbrev P (c : Dev nD) : SP.Idx → EReal := m ((c.tc : Thread nD τ).loc main_arg0)
abbrev T (c : Dev nD) : SP.Idx → EReal := m ((c.tc : Thread nD τ).loc main_arg1)
abbrev A (c : Dev nD) : SA.Idx → EReal := m ((c.tc : Thread nD τ).loc main_arg2)

/-- A stretch of host operations leaves a buffer that none of them writes as it was: the buffer is none of the
    operations' results, reference by reference. -/
local macro "stretch_keeps" : tactic =>
  `(tactic| (refine StableHlo.after_of_forall_not_mem (b := _) _ _ (List.forall_iff_forall_mem.mp ?_)
             simp only [hostOps1, hostOps1_1, hostOps1_2, hostOps2, List.Forall, StableHlo.nullary_writes,
               StableHlo.unary_writes, StableHlo.binary_writes, StableHlo.ternary_writes, StableHlo.reshape_writes,
               Finset.mem_singleton]
             repeat' apply And.intro
             all_goals exact StableHlo.devRef_ne_of_ne (by decide)))

/-- The second region finds the predictions and targets as launched: no host operation between the regions writes them,
    and the first region only reads them. -/
theorem V4_arg0 (c : Dev nD) : V4 m ρ c main_arg0 = P m c :=
  calc W4 m ρ c (Proc.devRef .tc main_arg0)
    _ = W3 m ρ c (Proc.devRef .tc main_arg0) := by stretch_keeps
    _ = W2 m ρ c (Proc.devRef .tc main_arg0) := by stretch_keeps
    _ = W1 m ρ c (Proc.devRef .tc main_arg0) := by stretch_keeps
    _ = W0 m ρ c (Proc.devRef .tc main_arg0) :=
      (W1_arr m ρ c 0).trans (((dat0 (V0 m ρ) c).arrAt_in 0 rfl _).trans (A_eq0 (V0 m ρ) c 0))
    _ = m ((c : Thread nD τ).loc main_arg0) := rfl
theorem V4_arg1 (c : Dev nD) : V4 m ρ c main_arg1 = T m c :=
  calc W4 m ρ c (Proc.devRef .tc main_arg1)
    _ = W3 m ρ c (Proc.devRef .tc main_arg1) := by stretch_keeps
    _ = W2 m ρ c (Proc.devRef .tc main_arg1) := by stretch_keeps
    _ = W1 m ρ c (Proc.devRef .tc main_arg1) := by stretch_keeps
    _ = W0 m ρ c (Proc.devRef .tc main_arg1) :=
      (W1_arr m ρ c 1).trans (((dat0 (V0 m ρ) c).arrAt_in 1 rfl _).trans (A_eq0 (V0 m ρ) c 1))
    _ = m ((c : Thread nD τ).loc main_arg1) := rfl

/-- At the first region's exit the counts array holds the counts of the launched predictions and targets. -/
theorem W1_counts (c : Dev nD) :
    (W1 m ρ c (Proc.devRef .tc main_v0_0) : SAt.Idx → EReal) = fun j : SAt.Idx => cnt (P m c) (T m c) (j 1) (j 0) :=
  (W1_arr m ρ c 2).trans (GhmK0.counts_final (V0 m ρ) c)

/-- At the first region's exit the loss cell holds the loss summed over the launched predictions and targets. -/
theorem W1_loss (c : Dev nD) :
    (W1 m ρ c (Proc.devRef .tc main_v0_1) : S1x1.Idx → EReal) = fun _ : S1x1.Idx => lossSum (P m c) (T m c) :=
  (W1_arr m ρ c 3).trans (GhmK0.loss_final (V0 m ρ) c)

/-- The first region does not touch the running histogram. -/
theorem W1_hist (c : Dev nD) : (W1 m ρ c (Proc.devRef .tc main_arg2) : SA.Idx → EReal) = A m c :=
  W1_of_ne m ρ c main_arg2 (by decide)

/-- The second region finds, as its third operand, the updated histogram, bin by class. -/
theorem V4_v9 (c : Dev nD) :
    (V4 m ρ c main_v9 : SAt.Idx → EReal) = fun j : SAt.Idx => accNew (P m c) (T m c) (A m c) (j 1) (j 0) := by
  funext j
  obtain ⟨b, k, rfl⟩ : ∃ b k, j = ix2 b k := ⟨j 0, j 1, eq_ix2 j⟩
  show StableHlo.after hostOps1_2 (StableHlo.after hostOps1_1 (StableHlo.after hostOps1 (W1 m ρ c)))
    (Proc.devRef .tc main_v9) (ix2 b k) = _
  dsimp only [hostOps1, hostOps1_1, hostOps1_2]
  after_results
  show Scalar.select
      (FloatOps.cmpf (F := Ideal) (φ := .f32) .ogt ((W1 m ρ c (Proc.devRef .tc main_v0_0) : SAt.Idx → EReal) (ix2 b k))
        (FloatOps.ofBits (F := Ideal) .f32 0x00000000#32))
      (FloatOps.addf (F := Ideal) (φ := .f32)
        (FloatOps.mulf (F := Ideal) (φ := .f32) (FloatOps.ofBits (F := Ideal) .f32 0x3F19999A#32)
          (transpose S100x40 [1, 0] (W1 m ρ c (Proc.devRef .tc main_arg2) : SA.Idx → EReal)
            Cert.KernelIdeal.Gen.transposes_S40x100_S100x40_1_0 (ix2 b k)))
        (FloatOps.mulf (F := Ideal) (φ := .f32) (FloatOps.ofBits (F := Ideal) .f32 0x3ECCCCCD#32)
          ((W1 m ρ c (Proc.devRef .tc main_v0_0) : SAt.Idx → EReal) (ix2 b k))))
      (transpose S100x40 [1, 0] (W1 m ρ c (Proc.devRef .tc main_arg2) : SA.Idx → EReal)
        Cert.KernelIdeal.Gen.transposes_S40x100_S100x40_1_0 (ix2 b k)) = _
  rw [W1_counts, W1_hist, transpose_ix2_apply]
  rfl

/-- The first result: the mean loss. -/
theorem W6_v11 (c : Dev nD) : W6 m ρ c (Proc.devRef .tc main_v11) = lossArr (P m c) (T m c) := by
  have h1 : W6 m ρ c (Proc.devRef .tc main_v11) = W5 m ρ c (Proc.devRef .tc main_v11) := by stretch_keeps
  have h2 : W5 m ρ c (Proc.devRef .tc main_v11) = W4 m ρ c (Proc.devRef .tc main_v11) :=
    W5_of_ne m ρ c main_v11 (by decide)
  rw [h1, h2]
  funext i
  show StableHlo.after hostOps1_2 (StableHlo.after hostOps1_1 (StableHlo.after hostOps1 (W1 m ρ c)))
    (Proc.devRef .tc main_v11) i = _
  dsimp only [hostOps1, hostOps1_1, hostOps1_2]
  after_results
  show Ideal.div
      (shapeCast S_ (W1 m ρ c (Proc.devRef .tc main_v0_1) : S1x1.Idx → EReal) Cert.KernelIdeal.Gen.shapeCasts_S1x1_S_ i)
      (Ideal.ofBits .f32 0x4CA00000#32) = _
  rw [W1_loss]
  rfl

/-- The second result: the weights. -/
theorem W6_v12 (c : Dev nD) : W6 m ρ c (Proc.devRef .tc main_v12) = weightArr (P m c) (T m c) (A m c) := by
  have h1 : W6 m ρ c (Proc.devRef .tc main_v12) = W5 m ρ c (Proc.devRef .tc main_v12) := by stretch_keeps
  have h2 : W5 m ρ c (Proc.devRef .tc main_v12) = (dat1 (V4 m ρ) c).arrAt 3 cfg1.N := W5_arr m ρ c 3
  rw [h1, h2, GhmK1.weights_array (V4 m ρ) c]
  funext i
  obtain ⟨r, k, rfl⟩ : ∃ r k, i = ix2 r k := ⟨i 0, i 1, eq_ix2 i⟩
  rw [V4_arg0, V4_arg1, V4_v9]
  rfl

/-- The third result: the updated histogram, class by bin. -/
theorem W6_v13 (c : Dev nD) : W6 m ρ c (Proc.devRef .tc main_v13) = accArr (P m c) (T m c) (A m c) := by
  have h5 : W5 m ρ c (Proc.devRef .tc main_v9) = W4 m ρ c (Proc.devRef .tc main_v9) :=
    (W5_arr m ρ c 2).trans (((dat1 (V4 m ρ) c).arrAt_in 2 rfl _).trans (A_eq1 (V4 m ρ) c 2))
  funext j
  obtain ⟨k, b, rfl⟩ : ∃ k b, j = ix2 k b := ⟨j 0, j 1, eq_ix2 j⟩
  show StableHlo.after hostOps2 (W5 m ρ c) (Proc.devRef .tc main_v13) (ix2 k b) = _
  dsimp only [hostOps2]
  after_results
  rw [transpose_ix2_apply, h5]
  exact congrFun (V4_v9 m ρ c) (ix2 b k)

end Cert.KernelIdeal.GhmGlue

end
-- ==== Proof.RefBin.lean ====
/-
  The reference's bin array is the specification's bin entry by entry: the sigmoid it spells as `1 / (1 + e^(−x))` is the same
  extended-real function as the kernel's, the truncation to an integer and the clip into 0 … 99 are the same operations.
-/
import proofs.«157406_j13846974562932_1_alg».proof.Proof.RefReadP
import proofs.«157406_j13846974562932_1_alg».proof.Proof.SpecLemmas
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.ReferenceIdeal.GhmRef

open Cert.ReferenceIdeal Cert.ReferenceIdeal.ReadP Cert.Ghm

/-- The reference's clipped bin array is the specification's bin, entry by entry. -/
theorem ref_bin (x0 x1 : SP.Idx → EReal) (r : Fin 2097152) (c : Fin 40) :
    val_main_v11 (F := Ideal) x0 x1 (ix2 r c) = gradBin (x0 (ix2 r c)) (x1 (ix2 r c)) := by
  -- the stages read at the entry, outermost first: the clip, the truncation, the scaling by 100, |σ(x) − t|
  rw [val_main_v11_apply, val_main_call0_v4_apply, val_main_call0_v3_apply, val_main_c_2_apply,
    val_main_call0_v2_apply, val_main_call0_v1_apply, val_main_call0_v0_apply, val_main_c_apply,
    val_main_v10_apply, val_main_v9_apply, val_main_v7_apply, val_main_v6_apply, val_main_v5_apply,
    val_main_v4_apply, val_main_cst_0_apply, val_main_v3_apply, val_main_v2_apply, val_main_cst_apply,
    val_main_v1_apply, val_main_v0_apply, val_main_v8_apply, val_main_cst_1_apply]
  unfold gradBin
  rw [Ideal.ofBits_def, ofBits_one]
  rfl

end Cert.ReferenceIdeal.GhmRef

end
-- ==== Proof.LibScatterGather.lean ====
/-
  Two host indexing operations read at an index, for any sizes (general lemmas over the library's dimension-number records).

  * A float scatter-add into a flat array `[N]` of updates `[M]` at scatter indices `[M, 1]` (what
    `zeros(N).at[idx].add(upd)` lowers to: no window axes, the one operand axis inserted, index vector on axis 1): element
    `i` ends at its old value plus the updates whose index, read signed, is `i`.
  * A point gather from a matrix `[N0, N1]` at start indices `[R, C, 2]` (what `x[rows, cols]` with two integer arrays lowers
    to: both operand axes collapsed, slice sizes one, index vector on axis 2): element `(r, c)` is the operand at the two
    start-index components, each read signed and clamped into its axis.
-/
import Idealize.ShloMosaic.PureOps.Ideal
import Idealize.ShloMosaic.Lib.ValueIdx

noncomputable section

open scoped BigOperators

namespace Cert.LibScatterGather

open Idealize.ShloMosaic Idealize.ShloMosaic.ValueIdx

/-- The flat scatter's dimension numbers. -/
abbrev flatScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- A rank-1 index set is the range of its one coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The window of update `j` starts, on the operand's one axis, at the scatter index of `j` read signed. -/
theorem flat_start {N M w : Nat}
    (wf : ScatterDims.WF ⟨1, ![N]⟩ ⟨2, ![M, 1]⟩ ⟨1, ![M]⟩ [] [0] [0] 1)
    (idx : IVec ⟨2, ![M, 1]⟩ w) (j : Fin M) (a : Fin 1) :
    (flatScatterDims N M wf).start (ix1 j) idx a = (idx (ix2 j (0 : Fin 1))).toInt := by
  obtain rfl : a = 0 := Subsingleton.elim _ _
  unfold ScatterDims.start
  rw [dif_pos (show (0 : Fin 1) ∈ (flatScatterDims N M wf).scatterDimsToOperandDims from List.mem_singleton.mpr rfl)]
  have hsi : (flatScatterDims N M wf).siIdx (ix1 j)
      ⟨List.idxOf (0 : Fin 1) (flatScatterDims N M wf).scatterDimsToOperandDims,
        List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- The operand's one axis is inserted, so no update has a window coordinate on it. -/
theorem flat_window {N M : Nat}
    (wf : ScatterDims.WF ⟨1, ![N]⟩ ⟨2, ![M, 1]⟩ ⟨1, ![M]⟩ [] [0] [0] 1) (j : Fin M) (a : Fin 1) :
    (flatScatterDims N M wf).window (ix1 j) a = 0 := by
  obtain rfl : a = 0 := Subsingleton.elim _ _
  unfold ScatterDims.window
  rw [dif_neg]
  show (0 : Fin 1) ∉ (List.finRange 1).filter (fun a => a ∉ [(0 : Fin 1)])
  decide

/-- Update `j` lands on element `i` exactly when its scatter index, read signed, is `i` (an index outside `[0, N)` lands
    nowhere). -/
theorem flat_resultIdx_iff {N M w : Nat}
    (wf : ScatterDims.WF ⟨1, ![N]⟩ ⟨2, ![M, 1]⟩ ⟨1, ![M]⟩ [] [0] [0] 1)
    (idx : IVec ⟨2, ![M, 1]⟩ w) (j : Fin M) (i : Fin N) :
    (flatScatterDims N M wf).resultIdx? (ix1 j) idx = some (ix1 i) ↔ (idx (ix2 j (0 : Fin 1))).toInt = (i.val : Int) := by
  have hN : (⟨1, ![N]⟩ : Shape).size (0 : Fin 1) = N := rfl
  have hi := i.isLt
  unfold ScatterDims.resultIdx?
  by_cases h : ∀ a : Fin 1, 0 ≤ (flatScatterDims N M wf).start (ix1 j) idx a + (flatScatterDims N M wf).window (ix1 j) a ∧
      (flatScatterDims N M wf).start (ix1 j) idx a + (flatScatterDims N M wf).window (ix1 j) a < (⟨1, ![N]⟩ : Shape).size a
  · rw [dif_pos h]
    have h0 := h 0
    rw [flat_start, flat_window, hN] at h0
    constructor
    · intro he
      have h1 := congrArg Fin.val (congrFun (Option.some.inj he) (0 : Fin 1))
      change ((flatScatterDims N M wf).start (ix1 j) idx 0 + (flatScatterDims N M wf).window (ix1 j) 0).toNat = i.val at h1
      rw [flat_start, flat_window] at h1
      omega
    · intro he
      congr 1
      funext a
      obtain rfl : a = 0 := Subsingleton.elim _ _
      refine Fin.ext ?_
      change ((flatScatterDims N M wf).start (ix1 j) idx 0 + (flatScatterDims N M wf).window (ix1 j) 0).toNat = i.val
      rw [flat_start, flat_window]
      omega
  · rw [dif_neg h]
    constructor
    · intro he; cases he
    · intro he
      exfalso
      apply h
      intro a
      obtain rfl : a = 0 := Subsingleton.elim _ _
      rw [flat_start, flat_window, hN]
      omega

/-- THE FLAT SCATTER-ADD AT `i`: the old value plus every update whose scatter index, read signed, is `i`. -/
theorem scatterAdd_flat_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (i : Fin N) :
    Ideal.hostScatterAdd (flatScatterDims N M wf) x idx upd (ix1 i)
      = x (ix1 i) + ∑ j : Fin M, if (idx (ix2 j (0 : Fin 1))).toInt = (i.val : Int) then upd (ix1 j) else 0 := by
  unfold Ideal.hostScatterAdd
  congr 1
  rw [Finset.sum_filter, sum_idx1]
  refine Finset.sum_congr rfl fun j _ => ?_
  exact if_congr (flat_resultIdx_iff wf idx j i) rfl rfl

/-- The point gather's dimension numbers. -/
abbrev pointGatherDims (N0 N1 R C : Nat)
    (wf : GatherDims.WF ⟨2, ![N0, N1]⟩ ⟨3, ![R, C, 2]⟩ ⟨2, ![R, C]⟩ [] [0, 1] [] [0, 1] [] 2 ![1, 1]) :
    GatherDims ⟨2, ![N0, N1]⟩ ⟨3, ![R, C, 2]⟩ ⟨2, ![R, C]⟩ where
  offsetDims := []
  collapsedSliceDims := [0, 1]
  operandBatchingDims := []
  startIndicesBatchingDims := []
  startIndexMap := [0, 1]
  indexVectorDim := 2
  sliceSizes := ![1, 1]
  wf := wf

/-- THE POINT GATHER AT `(r, c)`: the operand at the two start-index components, each read signed and clamped. -/
theorem gather_point_apply {α : Type} {N0 N1 R C w : Nat} (h0 : 0 < N0) (h1 : 0 < N1)
    (wf : GatherDims.WF ⟨2, ![N0, N1]⟩ ⟨3, ![R, C, 2]⟩ ⟨2, ![R, C]⟩ [] [0, 1] [] [0, 1] [] 2 ![1, 1])
    (x : (⟨2, ![N0, N1]⟩ : Shape).Idx → α) (idx : IVec ⟨3, ![R, C, 2]⟩ w) (r : Fin R) (c : Fin C) :
    Host.gather (pointGatherDims N0 N1 R C wf) x idx (ix2 r c)
      = x (ix2 (⟨min (idx (ix3 r c (0 : Fin 2))).toInt.toNat (N0 - 1), by omega⟩ : Fin N0)
               (⟨min (idx (ix3 r c (1 : Fin 2))).toInt.toNat (N1 - 1), by omega⟩ : Fin N1)) := by
  unfold Host.gather
  congr 1
  funext a
  refine Fin.ext ?_
  have hcoll : ∀ a : Fin 2, a ∈ ([0, 1] : List (Fin 2)) := by decide
  have hmap : ∀ a : Fin 2, a ∈ ([0, 1] : List (Fin 2)) := by decide
  show (pointGatherDims N0 N1 R C wf).start (ix2 r c) idx a + (pointGatherDims N0 N1 R C wf).batchCoord (ix2 r c) a
      + (pointGatherDims N0 N1 R C wf).offCoord (ix2 r c) a = _
  rw [GatherDims.batchCoord_eq_zero _ _ _ List.not_mem_nil,
    GatherDims.offCoord_eq_zero _ _ _ (fun h => ((GatherDims.mem_sKept _ _).mp h).1 (hcoll a))]
  simp only [Nat.add_zero]
  unfold GatherDims.start
  rw [dif_pos (hmap a)]
  match a with
  | ⟨0, _⟩ =>
    have hsi : (pointGatherDims N0 N1 R C wf).siIdx (ix2 r c)
        ⟨List.idxOf (⟨0, by omega⟩ : Fin 2) (pointGatherDims N0 N1 R C wf).startIndexMap,
          List.idxOf_lt_length_iff.2 (hmap _)⟩ = ix3 r c (0 : Fin 2) := by
      funext b; refine Fin.ext ?_
      match b with
      | ⟨0, _⟩ => rfl
      | ⟨1, _⟩ => rfl
      | ⟨2, _⟩ => rfl
    rw [hsi]
    rfl
  | ⟨1, _⟩ =>
    have hsi : (pointGatherDims N0 N1 R C wf).siIdx (ix2 r c)
        ⟨List.idxOf (⟨1, by omega⟩ : Fin 2) (pointGatherDims N0 N1 R C wf).startIndexMap,
          List.idxOf_lt_length_iff.2 (hmap _)⟩ = ix3 r c (1 : Fin 2) := by
      funext b; refine Fin.ext ?_
      match b with
      | ⟨0, _⟩ => rfl
      | ⟨1, _⟩ => rfl
      | ⟨2, _⟩ => rfl
    rw [hsi]
    rfl

end Cert.LibScatterGather

end
-- ==== Proof.RefCounts.lean ====
/-
  The reference's counts. They come from one flat scatter-add of ones at the positions
  `class · 100 + bin`: position `c · 100 + b` receives a one from exactly the entries of class `c` with bin `b`.
-/
import proofs.«157406_j13846974562932_1_alg».proof.Proof.RefReadP
import proofs.«157406_j13846974562932_1_alg».proof.Proof.RefBin
import proofs.«157406_j13846974562932_1_alg».proof.Proof.SpecLemmas
import proofs.«157406_j13846974562932_1_alg».proof.Proof.LibScatterGather
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.ReferenceIdeal.GhmRef

open Cert.ReferenceIdeal Cert.ReferenceIdeal.ReadP Cert.Ghm

/-! ## Word arithmetic of the flat position `class · 100 + bin` -/

/-- The 32-bit word `class · 100 + bin` is the word of that number. -/
theorem flatWord_eq (c' : Fin 40) (k : Fin 100) :
    IntOp.addi (IntOp.muli (BitVec.ofNat 32 c'.val) 100#32) (BitVec.ofNat 32 k.val)
      = BitVec.ofNat 32 (c'.val * 100 + k.val) := by
  apply BitVec.eq_of_toNat_eq
  simp only [IntOp.addi, IntOp.muli, BitVec.toNat_add, BitVec.toNat_mul, BitVec.toNat_ofNat]
  have := c'.isLt; have := k.isLt
  omega

/-- Read signed, the word of a number below 4000 is that number. -/
theorem ofNat_toInt_small (n : Nat) (h : n < 4000) : (BitVec.ofNat 32 n).toInt = (n : Int) := by
  rw [BitVec.toInt_eq_toNat_cond, BitVec.toNat_ofNat]
  have h2 : n % 2 ^ 32 = n := Nat.mod_eq_of_lt (by omega)
  rw [h2]
  split <;> omega

/-- The wrap of a negative position (`p < 0 ↦ p + 4000`) never fires on a position in `0 … 3999`. -/
theorem flatSel_toInt (n : Nat) (h : n < 4000) :
    (Scalar.select (IntOp.cmpi .slt (BitVec.ofNat 32 n) 0#32) (IntOp.addi (BitVec.ofNat 32 n) 4000#32)
      (BitVec.ofNat 32 n)).toInt = (n : Int) := by
  have h0 : IntOp.cmpi .slt (BitVec.ofNat 32 n) 0#32 = 0#1 := by
    show BitVec.ofBool (decide ((BitVec.ofNat 32 n).toInt < (0#32).toInt)) = 0#1
    rw [ofNat_toInt_small n h]
    have : ¬ ((n : Int) < (0#32).toInt) := by
      have : (0#32).toInt = 0 := by decide
      omega
    rw [decide_eq_false this]; rfl
  rw [h0, select_zero, ofNat_toInt_small n h]

/-! ## The flat index `sample · 40 + class` -/

/-- The row-major flattening of the sample-by-class index set. -/
def flatEquiv : Fin 2097152 × Fin 40 ≃ Fin 83886080 where
  toFun p := ⟨p.1.val * 40 + p.2.val, by have := p.1.isLt; have := p.2.isLt; omega⟩
  invFun j := (⟨j.val / 40, by have := j.isLt; omega⟩, ⟨j.val % 40, by omega⟩)
  left_inv p := by
    have := p.1.isLt; have := p.2.isLt
    apply Prod.ext <;> apply Fin.ext <;> simp <;> omega
  right_inv j := by
    apply Fin.ext; simp; omega

/-- A sum over the flat index is the double sum over sample and class. -/
theorem sum_flat {α : Type} [AddCommMonoid α] (f : Fin 83886080 → α) :
    ∑ j : Fin 83886080, f j
      = ∑ r : Fin 2097152, ∑ c : Fin 40, f ⟨r.val * 40 + c.val, by have := r.isLt; have := c.isLt; omega⟩ := by
  rw [← Equiv.sum_comp flatEquiv f, Fintype.sum_prod_type]
  rfl

/-- The flat entry `sample · 40 + class` of the reshaped array is the entry `(sample, class)`. -/
theorem idx_flat (r : Fin 2097152) (c' : Fin 40) (h : r.val * 40 + c'.val < 83886080) :
    idx_main_v18 (idx_main_v25 (ix2 (⟨r.val * 40 + c'.val, h⟩ : Fin 83886080) (0 : Fin 1))) = ix2 r c' := by
  have := c'.isLt
  funext a
  match a with
  | ⟨0, _⟩ => exact Fin.ext (show (r.val * 40 + c'.val) / 40 = r.val by omega)
  | ⟨1, _⟩ => exact Fin.ext (show (r.val * 40 + c'.val) % 40 = c'.val by omega)

/-- The scatter position of the flat entry `sample · 40 + class`, read signed, is `class · 100 + bin`. -/
theorem ref_pos (x0 x1 : SP.Idx → EReal) (r : Fin 2097152) (c' : Fin 40) (h : r.val * 40 + c'.val < 83886080) :
    (val_main_v25 (F := Ideal) x0 x1 (ix2 (⟨r.val * 40 + c'.val, h⟩ : Fin 83886080) (0 : Fin 1))).toInt
      = ((c'.val * 100 + (binFin (x0 (ix2 r c')) (x1 (ix2 r c'))).val : Nat) : Int) := by
  rw [val_main_v25_apply, val_main_v24_apply, val_main_v21_apply, val_main_v23_apply, val_main_v18_apply,
    val_main_v20_apply, val_main_c_5_apply, val_main_v22_apply, val_main_c_6_apply, val_main_v17_apply,
    val_main_v16_apply, val_main_v15_apply, val_main_v13_apply, val_main_v12_apply, val_main_v14_apply,
    val_main_c_3_apply, idx_flat r c' h, ref_bin, gradBin_eq]
  show (Scalar.select (IntOp.cmpi .slt (IntOp.addi (IntOp.muli (BitVec.ofNat 32 c'.val) 100#32)
      (BitVec.ofNat 32 (binFin (x0 (ix2 r c')) (x1 (ix2 r c'))).val)) 0#32)
    (IntOp.addi (IntOp.addi (IntOp.muli (BitVec.ofNat 32 c'.val) 100#32)
      (BitVec.ofNat 32 (binFin (x0 (ix2 r c')) (x1 (ix2 r c'))).val)) 4000#32)
    (IntOp.addi (IntOp.muli (BitVec.ofNat 32 c'.val) 100#32)
      (BitVec.ofNat 32 (binFin (x0 (ix2 r c')) (x1 (ix2 r c'))).val))).toInt = _
  rw [flatWord_eq]
  exact flatSel_toInt _ (by have := c'.isLt; have := (binFin (x0 (ix2 r c')) (x1 (ix2 r c'))).isLt; omega)

/-- The count at a position `c · 100 + b` of a flat scatter-add of ones into zeros, given that the flat entry
    `sample · 40 + class` is sent to the position `class · 100 + bin`: of the 40 entries of a sample only the one of class
    `c` can sit at a position `c · 100 + …` (a bin is below 100), and it does exactly when its bin is `b`. -/
theorem count_core (P T : SP.Idx → EReal)
    (wf : ScatterDims.WF ⟨1, ![4000]⟩ ⟨2, ![83886080, 1]⟩ ⟨1, ![83886080]⟩ [] [0] [0] 1)
    (z : (⟨1, ![4000]⟩ : Shape).Idx → EReal) (idx : IVec ⟨2, ![83886080, 1]⟩ 32)
    (one : (⟨1, ![83886080]⟩ : Shape).Idx → EReal)
    (hz : ∀ i, z i = 0) (hone : ∀ j, one j = 1)
    (hpos : ∀ (r : Fin 2097152) (c' : Fin 40) (h : r.val * 40 + c'.val < 83886080),
      (idx (ix2 (⟨r.val * 40 + c'.val, h⟩ : Fin 83886080) (0 : Fin 1))).toInt
        = ((c'.val * 100 + (binFin (P (ix2 r c')) (T (ix2 r c'))).val : Nat) : Int))
    (c : Fin 40) (b : Fin 100) (hcb : c.val * 100 + b.val < 4000) :
    Ideal.hostScatterAdd (Cert.LibScatterGather.flatScatterDims 4000 83886080 wf) z idx one
        (ix1 (⟨c.val * 100 + b.val, hcb⟩ : Fin 4000))
      = cnt P T c b := by
  rw [Cert.LibScatterGather.scatterAdd_flat_apply, hz, zero_add, sum_flat]
  unfold cnt
  refine Finset.sum_congr rfl (fun r _ => ?_)
  rw [Finset.sum_eq_single c]
  · beta_reduce
    rw [hpos, hone]
    refine if_congr ?_ rfl rfl
    rw [gradBin_eq_iff]
    constructor
    · intro hEq
      simp only [Fin.val_mk] at hEq
      exact Fin.ext (by omega)
    · intro hEq
      rw [hEq]
  · intro c' _ hne
    beta_reduce
    rw [hpos]
    refine if_neg (fun hEq => hne (Fin.ext ?_))
    simp only [Fin.val_mk] at hEq
    have := (binFin (P (ix2 r c')) (T (ix2 r c'))).isLt
    have := b.isLt
    omega
  · intro hc
    exact absurd (Finset.mem_univ c) hc

/-- Over the extended reals the host's accumulating scatter is the exact sum, for any dimension numbers. -/
theorem scatterAdd_ideal {s si u : Shape} {w : Nat} (d : ScatterDims s si u) (x : FVec Ideal s .f32)
    (idx : IVec si w) (upd : FVec Ideal u .f32) :
    Host.scatterAdd d x idx upd = Ideal.hostScatterAdd d x idx upd := rfl

/-- The reference's counts (the scatter-add reshaped class by bin) are the specification's counts. -/
theorem ref_counts (x0 x1 : SP.Idx → EReal) (c : Fin 40) (b : Fin 100) :
    val_main_v28 (F := Ideal) x0 x1 (ix2 c b) = cnt x0 x1 c b := by
  have hcb : c.val * 100 + b.val < 4000 := by have := c.isLt; have := b.isLt; omega
  -- the reshaped entry `(c, b)` is the flat entry `c · 100 + b`
  have hi : idx_main_v28 (ix2 c b) = ix1 (⟨c.val * 100 + b.val, hcb⟩ : Fin 4000) := by
    funext a
    match a with
    | ⟨0, _⟩ => rfl
  -- the scatter's dimension numbers are the flat scatter's
  have hd : (scatter_S4000_S83886080x1_S83886080_n_0_0_1 : ScatterDims S4000 S83886080x1 S83886080)
      = Cert.LibScatterGather.flatScatterDims 4000 83886080 Facts₀.scatter_S4000_S83886080x1_S83886080_n_0_0_1_wf := rfl
  rw [val_main_v28_apply, hi]
  unfold val_main_v27
  rw [scatterAdd_ideal, hd]
  exact count_core x0 x1 Facts₀.scatter_S4000_S83886080x1_S83886080_n_0_0_1_wf (val_main_v19 (F := Ideal))
    (val_main_v25 (F := Ideal) x0 x1) (val_main_v26 (F := Ideal))
    (fun i => by rw [val_main_v19_apply, val_main_cst_4_apply, Ideal.ofBits_def, ofBits_zero])
    (fun j => by rw [val_main_v26_apply, val_main_cst_7_apply, Ideal.ofBits_def, ofBits_one])
    (ref_pos x0 x1) c b hcb

end Cert.ReferenceIdeal.GhmRef

end
-- ==== Proof.RefValue.lean ====
/-
  The reference's three results are the specification's: the updated histogram is `where(count > 0, 0.6·A + 0.4·count, A)`
  over the counts; the weights gather it at (class, bin) — the gather's clamped start indices are the class and the bin
  themselves, both in range — and divide the batch size by it; the loss is the host's sum of the entry losses over both axes,
  from zero, over the number of entries.
-/
import proofs.«157406_j13846974562932_1_alg».proof.Proof.RefCounts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.ReferenceIdeal.GhmRef

open Cert.ReferenceIdeal Cert.ReferenceIdeal.ReadP Cert.Ghm

/-! ## Words: small numbers as signed 32-bit integers -/

/-- A number below 2³¹, written as a 32-bit word and read back signed, is itself. -/
theorem toInt_ofNat_small (n : Nat) (h : n < 2147483648) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- A word that is not negative fails the signed test "below zero". -/
theorem cmpi_slt_zero (w : BitVec 32) (h : 0 ≤ w.toInt) : IntOp.cmpi .slt w 0#32 = 0#1 := by
  have hs : w.slt 0#32 = false := by
    rw [BitVec.slt_eq_decide, decide_eq_false_iff_not, BitVec.toInt_zero]
    omega
  show BitVec.ofBool (w.slt 0#32) = 0#1
  rw [hs]; rfl

/-- Two rank-2 indices with equal coordinates are equal. -/
theorem ix2_congr {n0 n1 : Nat} {a a' : Fin n0} {b b' : Fin n1} (ha : a = a') (hb : b = b') :
    (ix2 a b : (⟨2, ![n0, n1]⟩ : Shape).Idx) = ix2 a' b' := by
  subst ha; subst hb; rfl

/-! ## The updated histogram -/

/-- The reference's updated histogram at (class, bin) is the specification's. -/
theorem ref_acc_apply (x0 x1 : SP.Idx → EReal) (x2 : SA.Idx → EReal) (c : Fin 40) (b : Fin 100) :
    val_main_v36 (F := Ideal) x0 x1 x2 (ix2 c b) = accNew x0 x1 x2 c b := by
  rw [val_main_v36_apply, val_main_v30_apply, val_main_v35_apply, val_main_v32_apply, val_main_v34_apply,
    val_main_v29_apply, val_main_v31_apply, val_main_v33_apply, val_main_cst_8_apply, val_main_cst_9_apply,
    val_main_cst_10_apply, ref_counts]
  rfl

theorem ref_acc (x0 x1 : SP.Idx → EReal) (x2 : SA.Idx → EReal) :
    val_main_v36 (F := Ideal) x0 x1 x2 = accArr x0 x1 x2 := by
  funext i
  obtain ⟨c, b, rfl⟩ : ∃ c b, i = ix2 c b := ⟨i 0, i 1, eq_ix2 i⟩
  rw [accArr_ix2]
  exact ref_acc_apply x0 x1 x2 c b

/-! ## The weights: the gather's start indices are the class and the bin -/

/-- The index the class iota's two broadcasts read: row 0, the class. -/
theorem idx_v50_ix3 (r : Fin 2097152) (c : Fin 40) :
    idx_main_v50 (ix3 r c (0 : Fin 1)) = ix2 r c := by
  funext a; match a with | ⟨0, _⟩ => rfl | ⟨1, _⟩ => rfl
theorem idx_v51_ix3 (r : Fin 2097152) (c : Fin 40) :
    idx_main_v51 (ix3 r c (0 : Fin 1)) = ix2 r c := by
  funext a; match a with | ⟨0, _⟩ => rfl | ⟨1, _⟩ => rfl
theorem idx_v49_ix2 (r : Fin 2097152) (c : Fin 40) :
    idx_main_v49 (ix2 r c) = ix2 (0 : Fin 1) c := by
  funext a; match a with | ⟨0, _⟩ => rfl | ⟨1, _⟩ => rfl

/-- The class iota, laid along a one-row matrix, reads the class as a word. -/
theorem v38_ix2 (z : Fin 1) (c : Fin 40) :
    val_main_v38 (F := Ideal) (ix2 z c) = BitVec.ofNat 32 c.val :=
  (val_main_v38_apply (F := Ideal) (ix2 z c)).trans (val_main_v37_apply (F := Ideal) (idx_main_v38 (ix2 z c)))

/-- The "negative, so add 40" adjustment never fires on a class: the adjusted class index is the class. -/
theorem v43_ix2 (z : Fin 1) (c : Fin 40) :
    val_main_v43 (F := Ideal) (ix2 z c) = BitVec.ofNat 32 c.val := by
  rw [val_main_v43_apply, val_main_v40_apply, v38_ix2, val_main_v39_apply, val_main_c_11_apply,
    cmpi_slt_zero (BitVec.ofNat 32 c.val)
      (by rw [toInt_ofNat_small _ (by have := c.isLt; omega)]; exact Int.natCast_nonneg _),
    select_zero]

/-- The "negative, so add 100" adjustment never fires on a bin: the adjusted bin index is the bin. -/
theorem v48_ix2 (x0 x1 : SP.Idx → EReal) (r : Fin 2097152) (c : Fin 40) :
    val_main_v48 (F := Ideal) x0 x1 (ix2 r c) = gradBin (x0 (ix2 r c)) (x1 (ix2 r c)) := by
  rw [val_main_v48_apply, val_main_v45_apply, val_main_v44_apply, val_main_c_13_apply, ref_bin,
    cmpi_slt_zero (gradBin (x0 (ix2 r c)) (x1 (ix2 r c))) (by rw [gradBin_toInt]; exact Int.natCast_nonneg _),
    select_zero]

/-- Component 0 of the start indices at (r, c) is the class. -/
theorem v52_0 (x0 x1 : SP.Idx → EReal) (r : Fin 2097152) (c : Fin 40) :
    val_main_v52 (F := Ideal) x0 x1 (ix3 r c (0 : Fin 2)) = BitVec.ofNat 32 c.val := by
  have hi : ∀ b : Fin 3, ((ix3 r c (0 : Fin 1) : S2097152x40x1.Idx) b).val
      = ((ix3 r c (0 : Fin 2) : S2097152x40x2.Idx) (b.cast rfl)).val :=
    fun b => match b with | ⟨0, _⟩ => rfl | ⟨1, _⟩ => rfl | ⟨2, _⟩ => rfl
  unfold val_main_v52
  rw [concatenate_pair_apply_left (t := S2097152x40x2) (s₁ := S2097152x40x1) (s₂ := S2097152x40x1)
      (2 : Fin 3) (val_main_v50 (F := Ideal)) (val_main_v51 (F := Ideal) x0 x1) _
      (ix3 r c (0 : Fin 2)) rfl (ix3 r c (0 : Fin 1)) hi,
    val_main_v50_apply, idx_v50_ix3, val_main_v49_apply, idx_v49_ix2, v43_ix2]

/-- Component 1 of the start indices at (r, c) is the entry's bin. -/
theorem v52_1 (x0 x1 : SP.Idx → EReal) (r : Fin 2097152) (c : Fin 40) :
    val_main_v52 (F := Ideal) x0 x1 (ix3 r c (1 : Fin 2)) = gradBin (x0 (ix2 r c)) (x1 (ix2 r c)) := by
  have hi : ∀ b : Fin 3, b.cast (rfl : (3 : Nat) = 3) ≠ (2 : Fin 3) →
      ((ix3 r c (0 : Fin 1) : S2097152x40x1.Idx) b).val
        = ((ix3 r c (1 : Fin 2) : S2097152x40x2.Idx) (b.cast rfl)).val :=
    fun b hb => match b, hb with
      | ⟨0, _⟩, _ => rfl
      | ⟨1, _⟩, _ => rfl
      | ⟨2, _⟩, hb => absurd rfl hb
  unfold val_main_v52
  rw [concatenate_pair_apply_right (t := S2097152x40x2) (s₁ := S2097152x40x1) (s₂ := S2097152x40x1)
      (2 : Fin 3) (val_main_v50 (F := Ideal)) (val_main_v51 (F := Ideal) x0 x1) _
      (ix3 r c (1 : Fin 2)) rfl rfl (ix3 r c (0 : Fin 1)) hi rfl,
    val_main_v51_apply, idx_v51_ix3, v48_ix2]

/-- The gather's printed dimension numbers are the point gather's. -/
theorem gatherDims_eq :
    gather_S40x100_S2097152x40x2_S2097152x40_n_01_n_n_01_2_11
      = Cert.LibScatterGather.pointGatherDims 40 100 2097152 40
          Facts₀.gather_S40x100_S2097152x40x2_S2097152x40_n_01_n_n_01_2_11_wf := rfl

/-- The gathered histogram at (r, c) is the updated histogram at the entry's class and bin. -/
theorem v53_ix2 (x0 x1 : SP.Idx → EReal) (x2 : SA.Idx → EReal) (r : Fin 2097152) (c : Fin 40) :
    val_main_v53 (F := Ideal) x0 x1 x2 (ix2 r c)
      = accNew x0 x1 x2 c (binFin (x0 (ix2 r c)) (x1 (ix2 r c))) := by
  unfold val_main_v53
  rw [gatherDims_eq, Cert.LibScatterGather.gather_point_apply (N0 := 40) (N1 := 100) (by decide) (by decide)]
  refine (congrArg (val_main_v36 (F := Ideal) x0 x1 x2) (ix2_congr ?_ ?_)).trans
    (ref_acc_apply x0 x1 x2 c (binFin (x0 (ix2 r c)) (x1 (ix2 r c))))
  · apply Fin.ext
    show min (val_main_v52 (F := Ideal) x0 x1 (ix3 r c (0 : Fin 2))).toInt.toNat (40 - 1) = c.val
    rw [v52_0, toInt_ofNat_small _ (by have := c.isLt; omega)]
    have := c.isLt
    simp only [Int.toNat_natCast]
    omega
  · apply Fin.ext
    show min (val_main_v52 (F := Ideal) x0 x1 (ix3 r c (1 : Fin 2))).toInt.toNat (100 - 1)
      = (binFin (x0 (ix2 r c)) (x1 (ix2 r c))).val
    rw [v52_1]
    rfl

/-- One entry's weight: the batch size over the gathered histogram. -/
theorem ref_weights_apply (x0 x1 : SP.Idx → EReal) (x2 : SA.Idx → EReal) (r : Fin 2097152) (c : Fin 40) :
    val_main_v55 (F := Ideal) x0 x1 x2 (ix2 r c) = weight x0 x1 x2 r c := by
  rw [val_main_v55_apply, val_main_v54_apply, val_main_cst_15_apply, v53_ix2]
  rfl

theorem ref_weights (x0 x1 : SP.Idx → EReal) (x2 : SA.Idx → EReal) :
    val_main_v55 (F := Ideal) x0 x1 x2 = weightArr x0 x1 x2 := by
  funext i
  obtain ⟨r, c, rfl⟩ : ∃ r c, i = ix2 r c := ⟨i 0, i 1, eq_ix2 i⟩
  rw [weightArr_ix2]
  exact ref_weights_apply x0 x1 x2 r c

/-! ## The loss -/

/-- One entry of the summed array is the entry's cross-entropy. -/
theorem v64_ix2 (x0 x1 : SP.Idx → EReal) (r : Fin 2097152) (c : Fin 40) :
    val_main_v64 (F := Ideal) x0 x1 (ix2 r c) = entryLoss (x0 (ix2 r c)) (x1 (ix2 r c)) := by
  rw [val_main_v64_apply, val_main_v59_apply, val_main_v57_apply, val_main_v58_apply, val_main_v63_apply,
    val_main_v62_apply, val_main_v61_apply, val_main_v60_apply, val_main_v56_apply, val_main_cst_16_apply]
  rfl

theorem ref_loss (x0 x1 : SP.Idx → EReal) :
    val_main_v66 (F := Ideal) x0 x1 = lossArr x0 x1 := by
  funext i
  have hs : (Ideal.ofBits .f32 0x00000000#32 : EReal)
      + ∑ j : S2097152x40.Idx, val_main_v64 (F := Ideal) x0 x1 j = lossSum x0 x1 := by
    rw [ofBits_zero, zero_add, sum_idx2]
    exact Finset.sum_congr rfl (fun r _ => Finset.sum_congr rfl (fun c _ => v64_ix2 x0 x1 r c))
  rw [val_main_v66_apply, val_main_v65_apply, val_main_cst_17_apply, val_main_cst_18_apply]
  show Ideal.div ((Ideal.ofBits .f32 0x00000000#32 : EReal)
      + ∑ j : S2097152x40.Idx, val_main_v64 (F := Ideal) x0 x1 j) (Ideal.ofBits .f32 0x4CA00000#32)
    = Ideal.div (lossSum x0 x1) (Ideal.ofBits .f32 0x4CA00000#32)
  rw [hs]

end Cert.ReferenceIdeal.GhmRef

end
-- ==== Proof.lean ====
/-
  The certificate: the histogram-binned loss kernel (two Pallas calls around a few host operations) against its jnp reference.

  Both programs, read over the extended reals, compute the same three functions of the predictions `P`, targets `T` and
  running histogram `A` (Proof/Spec.lean): the mean cross-entropy loss, every entry's weight — the batch size over the updated
  histogram at the entry's own class and bin —, and the updated histogram. The kernel counts bins by masks summed block by
  block over a grid and selects a histogram row by a sum of masked rows; the reference counts by one scatter-add and selects
  by a gather. Nothing needs the inputs finite: the two sides differ only in the order of sums and in `0·x = 0`, `0 + x = x`.
-/
import proofs.«157406_j13846974562932_1_alg».proof.Defs
import proofs.«157406_j13846974562932_1_alg».proof.Proof.Gen.Kernel
import proofs.«157406_j13846974562932_1_alg».proof.Proof.Gen.Kernel.Skeleton
import proofs.«157406_j13846974562932_1_alg».proof.Proof.Gen.Kernel.Launch
import proofs.«157406_j13846974562932_1_alg».proof.Proof.Gen.Kernel.Points
import proofs.«157406_j13846974562932_1_alg».proof.Proof.Gen.Kernel.Frame
import proofs.«157406_j13846974562932_1_alg».proof.Proof.Gen.KernelIdeal
import proofs.«157406_j13846974562932_1_alg».proof.Proof.Gen.KernelIdeal.Skeleton
import proofs.«157406_j13846974562932_1_alg».proof.Proof.Gen.KernelIdeal.Launch
import proofs.«157406_j13846974562932_1_alg».proof.Proof.Gen.KernelIdeal.Points
import proofs.«157406_j13846974562932_1_alg».proof.Proof.Gen.KernelIdeal.Frame
import proofs.«157406_j13846974562932_1_alg».proof.Proof.Gen.ReferenceIdeal
import proofs.«157406_j13846974562932_1_alg».proof.Proof.Gen.Pre_finite_inputs
import proofs.«157406_j13846974562932_1_alg».proof.Proof.RunNamed
import proofs.«157406_j13846974562932_1_alg».proof.Proof.HostGlue
import proofs.«157406_j13846974562932_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as launched (the generated frame). -/
theorem frame_k [Cert.Kernel.Facts] [Cert.Pre_finite_inputs.Facts] : Cert.frame_Kernel := fun m ρ _ => Cert.Kernel.Gen.frame m ρ

/-- So does its idealization. -/
theorem frame_ki [Cert.KernelIdeal.Facts] [Cert.Pre_finite_inputs.Facts] : Cert.frame_KernelIdeal := fun m ρ _ => Cert.KernelIdeal.Gen.frame m ρ

/-- The reference runs and leaves its arguments as launched: its run with the results dropped. -/
theorem frame_ri [Cert.ReferenceIdeal.Facts] [Cert.Pre_finite_inputs.Facts] : Cert.frame_ReferenceIdeal := fun m ρ _ =>
  (θ_run Cert.ReferenceIdeal.defs _ _).mono (fun _ h c => (h c).2.2.2) (Cert.ReferenceIdeal.ValueP.run (F := Ideal) m ρ)

/-- Over the extended reals the kernel's three results and the reference's are the specification's loss, weights and updated
    histogram of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  -- the common values: the specification's three functions of the kernel's arguments as launched
  refine ⟨fun c => Cert.Ghm.lossArr (Cert.KernelIdeal.GhmGlue.P m c) (Cert.KernelIdeal.GhmGlue.T m c),
    fun c => Cert.Ghm.weightArr (Cert.KernelIdeal.GhmGlue.P m c) (Cert.KernelIdeal.GhmGlue.T m c) (Cert.KernelIdeal.GhmGlue.A m c),
    fun c => Cert.Ghm.accArr (Cert.KernelIdeal.GhmGlue.P m c) (Cert.KernelIdeal.GhmGlue.T m c) (Cert.KernelIdeal.GhmGlue.A m c),
    ?_, ?_⟩
  · -- the kernel: its three results at the last boundary are those functions
    exact (θ_run Cert.KernelIdeal.defs _ _).mono (fun r h c =>
        ⟨(h c).1.trans (Cert.KernelIdeal.GhmGlue.W6_v11 m ρ c),
         (h c).2.1.trans (Cert.KernelIdeal.GhmGlue.W6_v12 m ρ c),
         (h c).2.2.1.trans (Cert.KernelIdeal.GhmGlue.W6_v13 m ρ c),
         (h c).2.2.2⟩)
      (Cert.KernelIdeal.GenRun.run_named (F := Ideal) m ρ)
  · -- the reference: its three results are the same functions of its own arguments, which agree with the kernel's
    refine (θ_run Cert.ReferenceIdeal.defs _ _).mono (fun r h c =>
        ⟨(h c).1.trans ?_, (h c).2.1.trans ?_, (h c).2.2.1.trans ?_, (h c).2.2.2⟩)
      (Cert.ReferenceIdeal.ValueP.run (F := Ideal) m' ρ')
    · refine (Cert.ReferenceIdeal.ReadP.val_main_v66_eq (F := Ideal) _ _).trans ?_
      rw [(hagree c).1, (hagree c).2.1]
      exact Cert.ReferenceIdeal.GhmRef.ref_loss _ _
    · refine (Cert.ReferenceIdeal.ReadP.val_main_v55_eq (F := Ideal) m' c).trans ?_
      rw [(hagree c).1, (hagree c).2.1, (hagree c).2.2]
      exact Cert.ReferenceIdeal.GhmRef.ref_weights _ _ _
    · refine (Cert.ReferenceIdeal.ReadP.val_main_v36_eq (F := Ideal) m' c).trans ?_
      rw [(hagree c).1, (hagree c).2.1, (hagree c).2.2]
      exact Cert.ReferenceIdeal.GhmRef.ref_acc _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
